-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x384x768 : Shape := ⟨4, ![4, 32, 384, 768]⟩
abbrev S4x25x384x768 : Shape := ⟨4, ![4, 25, 384, 768]⟩
abbrev S_ : Shape := ⟨0, ![]⟩

class Facts : Prop where
  bcast_S_S4x32x384x768 : S_.BroadcastsInDim S4x32x384x768 (![] : Fin 0 → Fin S4x32x384x768.rank)
  reducesTo_S4x32x384x768_S_d0_1_2_3 : S4x32x384x768.ReducesTo [0, 1, 2, 3] S_
  h_S_ : 0 < S_.numel
  bcast_S_S4x25x384x768 : S_.BroadcastsInDim S4x25x384x768 (![] : Fin 0 → Fin S4x25x384x768.rank)
  reducesTo_S4x25x384x768_S_d0_1_2_3 : S4x25x384x768.ReducesTo [0, 1, 2, 3] S_

variable [Facts]

def fn {F : FTy → Type} [FloatOps F] (main_arg0 : FVec F S4x32x384x768 .f32) (main_arg1 : FVec F S4x25x384x768 .f32) : IVec S_ 1 :=
  let main_v0 : FVec F S4x32x384x768 .f32 := Host.absf main_arg0
  let main_cst : FVec F S_ .f32 := constant S_ .f32 0x7F800000#32
  let main_v1 : FVec F S4x32x384x768 .f32 := broadcastInDim S4x32x384x768 ![] bcast_S_S4x32x384x768 main_cst
  let main_v2 : IVec S4x32x384x768 1 := cmpf .olt main_v0 main_v1
  let main_c : IVec S_ 1 := constantI S_ 1 1#1
  let main_v3 : IVec S_ 1 := (fun x v => Host.reduce IntOp.andi x v reducesTo_S4x32x384x768_S_d0_1_2_3 h_S_) main_v2 main_c
  let main_v4 : FVec F S4x25x384x768 .f32 := Host.absf main_arg1
  let main_cst_0 : FVec F S_ .f32 := constant S_ .f32 0x7F800000#32
  let main_v5 : FVec F S4x25x384x768 .f32 := broadcastInDim S4x25x384x768 ![] bcast_S_S4x25x384x768 main_cst_0
  let main_v6 : IVec S4x25x384x768 1 := cmpf .olt main_v4 main_v5
  let main_c_1 : IVec S_ 1 := constantI S_ 1 1#1
  let main_v7 : IVec S_ 1 := (fun x v => Host.reduce IntOp.andi x v reducesTo_S4x25x384x768_S_d0_1_2_3 h_S_) main_v6 main_c_1
  let main_v8 : IVec S_ 1 := andi main_v3 main_v7
  main_v8
-- ==== Kernel.lean ====
abbrev S4x32x384x768 : Shape := ⟨4, ![4, 32, 384, 768]⟩
abbrev S4x25x384x768 : Shape := ⟨4, ![4, 25, 384, 768]⟩
abbrev S_ : Shape := ⟨0, ![]⟩
abbrev S4x32x388x772 : Shape := ⟨4, ![4, 32, 388, 772]⟩
abbrev S1x1x388x772 : Shape := ⟨4, ![1, 1, 388, 772]⟩
abbrev S1x25x384x768 : Shape := ⟨4, ![1, 25, 384, 768]⟩
abbrev S1x1x384x768 : Shape := ⟨4, ![1, 1, 384, 768]⟩
abbrev S1x388x772 : Shape := ⟨3, ![1, 388, 772]⟩
abbrev S1x384x768 : Shape := ⟨3, ![1, 384, 768]⟩
abbrev S384x768 : Shape := ⟨2, ![384, 768]⟩

abbrev nBuf : Space → Nat
  | .hbm => 6
  | .vmem => 5
  | .smem => 0
  | _ => 0

abbrev bufTy : (tb : Table) → Fin (tcTables nBuf tb) → BufTy
  | .hbm, ⟨0, _⟩ => ⟨S4x32x384x768, .f32⟩
  | .hbm, ⟨1, _⟩ => ⟨S4x25x384x768, .f32⟩
  | .hbm, ⟨2, _⟩ => ⟨S_, .i32⟩
  | .hbm, ⟨3, _⟩ => ⟨S_, .f32⟩
  | .hbm, ⟨4, _⟩ => ⟨S4x32x388x772, .f32⟩
  | .hbm, ⟨5, _⟩ => ⟨S4x32x384x768, .f32⟩
  | .local _ .vmem, ⟨0, _⟩ => ⟨S1x1x388x772, .f32⟩
  | .local _ .vmem, ⟨1, _⟩ => ⟨S1x1x388x772, .f32⟩
  | .local _ .vmem, ⟨2, _⟩ => ⟨S1x25x384x768, .f32⟩
  | .local _ .vmem, ⟨3, _⟩ => ⟨S1x1x384x768, .f32⟩
  | .local _ .vmem, ⟨4, _⟩ => ⟨S1x1x384x768, .f32⟩
  | _, _ => ⟨S4x32x384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x388x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x25x384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x384x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x32x384x768_S4x32x388x772_000_000_220_220 : S4x32x384x768.Pads (![0, 0, 2, 2] : Fin 4 → Nat) ![0, 0, 2, 2] ![0, 0, 0, 0] S4x32x388x772
  h_S_ : 0 < S_.numel
  inb_S1x1x388x772_S1x1x388x772_0_0_0_0 : ∀ a, (![0, 0, 0, 0] : Fin 4 → Nat) a + S1x1x388x772.size a ≤ S1x1x388x772.size a
  h_S1x1x388x772 : 0 < S1x1x388x772.numel
  shapeCasts_S1x1x388x772_S1x388x772 : S1x1x388x772.ShapeCasts S1x388x772
  inb_S1x25x384x768_S1x1x384x768_0_0_0_0 : ∀ a, (![0, 0, 0, 0] : Fin 4 → Nat) a + S1x1x384x768.size a ≤ S1x25x384x768.size a
  h_S1x1x384x768 : 0 < S1x1x384x768.numel
  shapeCasts_S1x1x384x768_S384x768 : S1x1x384x768.ShapeCasts S384x768
  slices_S1x388x772_o0_0_0_S1x384x768 : S1x388x772.Slices ![0, 0, 0] S1x384x768
  shapeCasts_S384x768_S1x384x768 : S384x768.ShapeCasts S1x384x768
  inb_S1x25x384x768_S1x1x384x768_0_1_0_0 : ∀ a, (![0, 1, 0, 0] : Fin 4 → Nat) a + S1x1x384x768.size a ≤ S1x25x384x768.size a
  slices_S1x388x772_o0_0_1_S1x384x768 : S1x388x772.Slices ![0, 0, 1] S1x384x768
  inb_S1x25x384x768_S1x1x384x768_0_2_0_0 : ∀ a, (![0, 2, 0, 0] : Fin 4 → Nat) a + S1x1x384x768.size a ≤ S1x25x384x768.size a
  slices_S1x388x772_o0_0_2_S1x384x768 : S1x388x772.Slices ![0, 0, 2] S1x384x768
  inb_S1x25x384x768_S1x1x384x768_0_3_0_0 : ∀ a, (![0, 3, 0, 0] : Fin 4 → Nat) a + S1x1x384x768.size a ≤ S1x25x384x768.size a
  slices_S1x388x772_o0_0_3_S1x384x768 : S1x388x772.Slices ![0, 0, 3] S1x384x768
  inb_S1x25x384x768_S1x1x384x768_0_4_0_0 : ∀ a, (![0, 4, 0, 0] : Fin 4 → Nat) a + S1x1x384x768.size a ≤ S1x25x384x768.size a
  slices_S1x388x772_o0_0_4_S1x384x768 : S1x388x772.Slices ![0, 0, 4] S1x384x768
  inb_S1x25x384x768_S1x1x384x768_0_5_0_0 : ∀ a, (![0, 5, 0, 0] : Fin 4 → Nat) a + S1x1x384x768.size a ≤ S1x25x384x768.size a
  slices_S1x388x772_o0_1_0_S1x384x768 : S1x388x772.Slices ![0, 1, 0] S1x384x768
  inb_S1x25x384x768_S1x1x384x768_0_6_0_0 : ∀ a, (![0, 6, 0, 0] : Fin 4 → Nat) a + S1x1x384x768.size a ≤ S1x25x384x768.size a
  slices_S1x388x772_o0_1_1_S1x384x768 : S1x388x772.Slices ![0, 1, 1] S1x384x768
  inb_S1x25x384x768_S1x1x384x768_0_7_0_0 : ∀ a, (![0, 7, 0, 0] : Fin 4 → Nat) a + S1x1x384x768.size a ≤ S1x25x384x768.size a
  slices_S1x388x772_o0_1_2_S1x384x768 : S1x388x772.Slices ![0, 1, 2] S1x384x768
  inb_S1x25x384x768_S1x1x384x768_0_8_0_0 : ∀ a, (![0, 8, 0, 0] : Fin 4 → Nat) a + S1x1x384x768.size a ≤ S1x25x384x768.size a
  slices_S1x388x772_o0_1_3_S1x384x768 : S1x388x772.Slices ![0, 1, 3] S1x384x768
  inb_S1x25x384x768_S1x1x384x768_0_9_0_0 : ∀ a, (![0, 9, 0, 0] : Fin 4 → Nat) a + S1x1x384x768.size a ≤ S1x25x384x768.size a
  slices_S1x388x772_o0_1_4_S1x384x768 : S1x388x772.Slices ![0, 1, 4] S1x384x768
  inb_S1x25x384x768_S1x1x384x768_0_10_0_0 : ∀ a, (![0, 10, 0, 0] : Fin 4 → Nat) a + S1x1x384x768.size a ≤ S1x25x384x768.size a
  slices_S1x388x772_o0_2_0_S1x384x768 : S1x388x772.Slices ![0, 2, 0] S1x384x768
  inb_S1x25x384x768_S1x1x384x768_0_11_0_0 : ∀ a, (![0, 11, 0, 0] : Fin 4 → Nat) a + S1x1x384x768.size a ≤ S1x25x384x768.size a
  slices_S1x388x772_o0_2_1_S1x384x768 : S1x388x772.Slices ![0, 2, 1] S1x384x768
  inb_S1x25x384x768_S1x1x384x768_0_12_0_0 : ∀ a, (![0, 12, 0, 0] : Fin 4 → Nat) a + S1x1x384x768.size a ≤ S1x25x384x768.size a
  slices_S1x388x772_o0_2_2_S1x384x768 : S1x388x772.Slices ![0, 2, 2] S1x384x768
  inb_S1x25x384x768_S1x1x384x768_0_13_0_0 : ∀ a, (![0, 13, 0, 0] : Fin 4 → Nat) a + S1x1x384x768.size a ≤ S1x25x384x768.size a
  slices_S1x388x772_o0_2_3_S1x384x768 : S1x388x772.Slices ![0, 2, 3] S1x384x768
  inb_S1x25x384x768_S1x1x384x768_0_14_0_0 : ∀ a, (![0, 14, 0, 0] : Fin 4 → Nat) a + S1x1x384x768.size a ≤ S1x25x384x768.size a
  slices_S1x388x772_o0_2_4_S1x384x768 : S1x388x772.Slices ![0, 2, 4] S1x384x768
  inb_S1x25x384x768_S1x1x384x768_0_15_0_0 : ∀ a, (![0, 15, 0, 0] : Fin 4 → Nat) a + S1x1x384x768.size a ≤ S1x25x384x768.size a
  slices_S1x388x772_o0_3_0_S1x384x768 : S1x388x772.Slices ![0, 3, 0] S1x384x768
  inb_S1x25x384x768_S1x1x384x768_0_16_0_0 : ∀ a, (![0, 16, 0, 0] : Fin 4 → Nat) a + S1x1x384x768.size a ≤ S1x25x384x768.size a
  slices_S1x388x772_o0_3_1_S1x384x768 : S1x388x772.Slices ![0, 3, 1] S1x384x768
  inb_S1x25x384x768_S1x1x384x768_0_17_0_0 : ∀ a, (![0, 17, 0, 0] : Fin 4 → Nat) a + S1x1x384x768.size a ≤ S1x25x384x768.size a
  slices_S1x388x772_o0_3_2_S1x384x768 : S1x388x772.Slices ![0, 3, 2] S1x384x768
  inb_S1x25x384x768_S1x1x384x768_0_18_0_0 : ∀ a, (![0, 18, 0, 0] : Fin 4 → Nat) a + S1x1x384x768.size a ≤ S1x25x384x768.size a
  slices_S1x388x772_o0_3_3_S1x384x768 : S1x388x772.Slices ![0, 3, 3] S1x384x768
  inb_S1x25x384x768_S1x1x384x768_0_19_0_0 : ∀ a, (![0, 19, 0, 0] : Fin 4 → Nat) a + S1x1x384x768.size a ≤ S1x25x384x768.size a
  slices_S1x388x772_o0_3_4_S1x384x768 : S1x388x772.Slices ![0, 3, 4] S1x384x768
  inb_S1x25x384x768_S1x1x384x768_0_20_0_0 : ∀ a, (![0, 20, 0, 0] : Fin 4 → Nat) a + S1x1x384x768.size a ≤ S1x25x384x768.size a
  slices_S1x388x772_o0_4_0_S1x384x768 : S1x388x772.Slices ![0, 4, 0] S1x384x768
  inb_S1x25x384x768_S1x1x384x768_0_21_0_0 : ∀ a, (![0, 21, 0, 0] : Fin 4 → Nat) a + S1x1x384x768.size a ≤ S1x25x384x768.size a
  slices_S1x388x772_o0_4_1_S1x384x768 : S1x388x772.Slices ![0, 4, 1] S1x384x768
  inb_S1x25x384x768_S1x1x384x768_0_22_0_0 : ∀ a, (![0, 22, 0, 0] : Fin 4 → Nat) a + S1x1x384x768.size a ≤ S1x25x384x768.size a
  slices_S1x388x772_o0_4_2_S1x384x768 : S1x388x772.Slices ![0, 4, 2] S1x384x768
  inb_S1x25x384x768_S1x1x384x768_0_23_0_0 : ∀ a, (![0, 23, 0, 0] : Fin 4 → Nat) a + S1x1x384x768.size a ≤ S1x25x384x768.size a
  slices_S1x388x772_o0_4_3_S1x384x768 : S1x388x772.Slices ![0, 4, 3] S1x384x768
  inb_S1x25x384x768_S1x1x384x768_0_24_0_0 : ∀ a, (![0, 24, 0, 0] : Fin 4 → Nat) a + S1x1x384x768.size a ≤ S1x25x384x768.size a
  slices_S1x388x772_o0_4_4_S1x384x768 : S1x388x772.Slices ![0, 4, 4] S1x384x768
  inb_S1x1x384x768_S1x1x384x768_0_0_0_0 : ∀ a, (![0, 0, 0, 0] : Fin 4 → Nat) a + S1x1x384x768.size a ≤ S1x1x384x768.size a
  shapeCasts_S1x1x384x768_S1x384x768 : S1x1x384x768.ShapeCasts S1x384x768
  shapeCasts_S1x384x768_S1x1x384x768 : S1x384x768.ShapeCasts S1x1x384x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x388x772.size a ≤ S4x32x388x772.size a
  hwx0_0 : ∀ i : grid0.Coords, EltTy.bits .f32 = 32 ∨ (Rect.block (s := S4x32x388x772) S1x1x388x772.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x25x384x768.size a ≤ S4x25x384x768.size a
  hwx0_1 : ∀ i : grid0.Coords, EltTy.bits .f32 = 32 ∨ (Rect.block (s := S4x25x384x768) S1x25x384x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x384x768.size a ≤ S4x32x384x768.size a
  hwx0_2 : ∀ i : grid0.Coords, EltTy.bits .f32 = 32 ∨ (Rect.block (s := S4x32x384x768) S1x1x384x768.size (cc0_transform_2 i) (hinb0_2 i)).WholeWords (EltTy.packing .f32)

variable [Facts₀]

abbrev win0_0 : Pipeline.Window sig grid0 :=
  Pipeline.Window.ofSpec (Memref.whole main_v0) S1x1x388x772.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x25x384x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x384x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x384x768 : Shape := ⟨4, ![4, 32, 384, 768]⟩
abbrev S4x25x384x768 : Shape := ⟨4, ![4, 25, 384, 768]⟩
abbrev S_ : Shape := ⟨0, ![]⟩
abbrev S4x32x388x772 : Shape := ⟨4, ![4, 32, 388, 772]⟩
abbrev S4x1x384x768 : Shape := ⟨4, ![4, 1, 384, 768]⟩
abbrev S4x384x768 : Shape := ⟨3, ![4, 384, 768]⟩

abbrev nBuf : Space → Nat
  | .hbm => 182
  | .vmem => 0
  | .smem => 0
  | _ => 0

abbrev hbmTy0_0 (i : Nat) : BufTy := match i % 128 with
  | 0 => ⟨S4x32x384x768, .f32⟩
  | 1 => ⟨S4x25x384x768, .f32⟩
  | 2 => ⟨S_, .i32⟩
  | 3 => ⟨S_, .f32⟩
  | 4 => ⟨S4x32x388x772, .f32⟩
  | 5 => ⟨S_, .f32⟩
  | 6 => ⟨S4x32x384x768, .f32⟩
  | 7 => ⟨S4x32x384x768, .f32⟩
  | 8 => ⟨S4x1x384x768, .f32⟩
  | 9 => ⟨S4x384x768, .f32⟩
  | 10 => ⟨S4x1x384x768, .f32⟩
  | 11 => ⟨S4x32x384x768, .f32⟩
  | 12 => ⟨S4x32x384x768, .f32⟩
  | 13 => ⟨S4x32x384x768, .f32⟩
  | 14 => ⟨S4x32x384x768, .f32⟩
  | 15 => ⟨S4x1x384x768, .f32⟩
  | 16 => ⟨S4x384x768, .f32⟩
  | 17 => ⟨S4x1x384x768, .f32⟩
  | 18 => ⟨S4x32x384x768, .f32⟩
  | 19 => ⟨S4x32x384x768, .f32⟩
  | 20 => ⟨S4x32x384x768, .f32⟩
  | 21 => ⟨S4x32x384x768, .f32⟩
  | 22 => ⟨S4x1x384x768, .f32⟩
  | 23 => ⟨S4x384x768, .f32⟩
  | 24 => ⟨S4x1x384x768, .f32⟩
  | 25 => ⟨S4x32x384x768, .f32⟩
  | 26 => ⟨S4x32x384x768, .f32⟩
  | 27 => ⟨S4x32x384x768, .f32⟩
  | 28 => ⟨S4x32x384x768, .f32⟩
  | 29 => ⟨S4x1x384x768, .f32⟩
  | 30 => ⟨S4x384x768, .f32⟩
  | 31 => ⟨S4x1x384x768, .f32⟩
  | 32 => ⟨S4x32x384x768, .f32⟩
  | 33 => ⟨S4x32x384x768, .f32⟩
  | 34 => ⟨S4x32x384x768, .f32⟩
  | 35 => ⟨S4x32x384x768, .f32⟩
  | 36 => ⟨S4x1x384x768, .f32⟩
  | 37 => ⟨S4x384x768, .f32⟩
  | 38 => ⟨S4x1x384x768, .f32⟩
  | 39 => ⟨S4x32x384x768, .f32⟩
  | 40 => ⟨S4x32x384x768, .f32⟩
  | 41 => ⟨S4x32x384x768, .f32⟩
  | 42 => ⟨S4x32x384x768, .f32⟩
  | 43 => ⟨S4x1x384x768, .f32⟩
  | 44 => ⟨S4x384x768, .f32⟩
  | 45 => ⟨S4x1x384x768, .f32⟩
  | 46 => ⟨S4x32x384x768, .f32⟩
  | 47 => ⟨S4x32x384x768, .f32⟩
  | 48 => ⟨S4x32x384x768, .f32⟩
  | 49 => ⟨S4x32x384x768, .f32⟩
  | 50 => ⟨S4x1x384x768, .f32⟩
  | 51 => ⟨S4x384x768, .f32⟩
  | 52 => ⟨S4x1x384x768, .f32⟩
  | 53 => ⟨S4x32x384x768, .f32⟩
  | 54 => ⟨S4x32x384x768, .f32⟩
  | 55 => ⟨S4x32x384x768, .f32⟩
  | 56 => ⟨S4x32x384x768, .f32⟩
  | 57 => ⟨S4x1x384x768, .f32⟩
  | 58 => ⟨S4x384x768, .f32⟩
  | 59 => ⟨S4x1x384x768, .f32⟩
  | 60 => ⟨S4x32x384x768, .f32⟩
  | 61 => ⟨S4x32x384x768, .f32⟩
  | 62 => ⟨S4x32x384x768, .f32⟩
  | 63 => ⟨S4x32x384x768, .f32⟩
  | 64 => ⟨S4x1x384x768, .f32⟩
  | 65 => ⟨S4x384x768, .f32⟩
  | 66 => ⟨S4x1x384x768, .f32⟩
  | 67 => ⟨S4x32x384x768, .f32⟩
  | 68 => ⟨S4x32x384x768, .f32⟩
  | 69 => ⟨S4x32x384x768, .f32⟩
  | 70 => ⟨S4x32x384x768, .f32⟩
  | 71 => ⟨S4x1x384x768, .f32⟩
  | 72 => ⟨S4x384x768, .f32⟩
  | 73 => ⟨S4x1x384x768, .f32⟩
  | 74 => ⟨S4x32x384x768, .f32⟩
  | 75 => ⟨S4x32x384x768, .f32⟩
  | 76 => ⟨S4x32x384x768, .f32⟩
  | 77 => ⟨S4x32x384x768, .f32⟩
  | 78 => ⟨S4x1x384x768, .f32⟩
  | 79 => ⟨S4x384x768, .f32⟩
  | 80 => ⟨S4x1x384x768, .f32⟩
  | 81 => ⟨S4x32x384x768, .f32⟩
  | 82 => ⟨S4x32x384x768, .f32⟩
  | 83 => ⟨S4x32x384x768, .f32⟩
  | 84 => ⟨S4x32x384x768, .f32⟩
  | 85 => ⟨S4x1x384x768, .f32⟩
  | 86 => ⟨S4x384x768, .f32⟩
  | 87 => ⟨S4x1x384x768, .f32⟩
  | 88 => ⟨S4x32x384x768, .f32⟩
  | 89 => ⟨S4x32x384x768, .f32⟩
  | 90 => ⟨S4x32x384x768, .f32⟩
  | 91 => ⟨S4x32x384x768, .f32⟩
  | 92 => ⟨S4x1x384x768, .f32⟩
  | 93 => ⟨S4x384x768, .f32⟩
  | 94 => ⟨S4x1x384x768, .f32⟩
  | 95 => ⟨S4x32x384x768, .f32⟩
  | 96 => ⟨S4x32x384x768, .f32⟩
  | 97 => ⟨S4x32x384x768, .f32⟩
  | 98 => ⟨S4x32x384x768, .f32⟩
  | 99 => ⟨S4x1x384x768, .f32⟩
  | 100 => ⟨S4x384x768, .f32⟩
  | 101 => ⟨S4x1x384x768, .f32⟩
  | 102 => ⟨S4x32x384x768, .f32⟩
  | 103 => ⟨S4x32x384x768, .f32⟩
  | 104 => ⟨S4x32x384x768, .f32⟩
  | 105 => ⟨S4x32x384x768, .f32⟩
  | 106 => ⟨S4x1x384x768, .f32⟩
  | 107 => ⟨S4x384x768, .f32⟩
  | 108 => ⟨S4x1x384x768, .f32⟩
  | 109 => ⟨S4x32x384x768, .f32⟩
  | 110 => ⟨S4x32x384x768, .f32⟩
  | 111 => ⟨S4x32x384x768, .f32⟩
  | 112 => ⟨S4x32x384x768, .f32⟩
  | 113 => ⟨S4x1x384x768, .f32⟩
  | 114 => ⟨S4x384x768, .f32⟩
  | 115 => ⟨S4x1x384x768, .f32⟩
  | 116 => ⟨S4x32x384x768, .f32⟩
  | 117 => ⟨S4x32x384x768, .f32⟩
  | 118 => ⟨S4x32x384x768, .f32⟩
  | 119 => ⟨S4x32x384x768, .f32⟩
  | 120 => ⟨S4x1x384x768, .f32⟩
  | 121 => ⟨S4x384x768, .f32⟩
  | 122 => ⟨S4x1x384x768, .f32⟩
  | 123 => ⟨S4x32x384x768, .f32⟩
  | 124 => ⟨S4x32x384x768, .f32⟩
  | 125 => ⟨S4x32x384x768, .f32⟩
  | 126 => ⟨S4x32x384x768, .f32⟩
  | 127 => ⟨S4x1x384x768, .f32⟩
  | _ => ⟨S4x32x384x768, .f32⟩

abbrev hbmTy0_1 (i : Nat) : BufTy := match i % 128 with
  | 0 => ⟨S4x384x768, .f32⟩
  | 1 => ⟨S4x1x384x768, .f32⟩
  | 2 => ⟨S4x32x384x768, .f32⟩
  | 3 => ⟨S4x32x384x768, .f32⟩
  | 4 => ⟨S4x32x384x768, .f32⟩
  | 5 => ⟨S4x32x384x768, .f32⟩
  | 6 => ⟨S4x1x384x768, .f32⟩
  | 7 => ⟨S4x384x768, .f32⟩
  | 8 => ⟨S4x1x384x768, .f32⟩
  | 9 => ⟨S4x32x384x768, .f32⟩
  | 10 => ⟨S4x32x384x768, .f32⟩
  | 11 => ⟨S4x32x384x768, .f32⟩
  | 12 => ⟨S4x32x384x768, .f32⟩
  | 13 => ⟨S4x1x384x768, .f32⟩
  | 14 => ⟨S4x384x768, .f32⟩
  | 15 => ⟨S4x1x384x768, .f32⟩
  | 16 => ⟨S4x32x384x768, .f32⟩
  | 17 => ⟨S4x32x384x768, .f32⟩
  | 18 => ⟨S4x32x384x768, .f32⟩
  | 19 => ⟨S4x32x384x768, .f32⟩
  | 20 => ⟨S4x1x384x768, .f32⟩
  | 21 => ⟨S4x384x768, .f32⟩
  | 22 => ⟨S4x1x384x768, .f32⟩
  | 23 => ⟨S4x32x384x768, .f32⟩
  | 24 => ⟨S4x32x384x768, .f32⟩
  | 25 => ⟨S4x32x384x768, .f32⟩
  | 26 => ⟨S4x32x384x768, .f32⟩
  | 27 => ⟨S4x1x384x768, .f32⟩
  | 28 => ⟨S4x384x768, .f32⟩
  | 29 => ⟨S4x1x384x768, .f32⟩
  | 30 => ⟨S4x32x384x768, .f32⟩
  | 31 => ⟨S4x32x384x768, .f32⟩
  | 32 => ⟨S4x32x384x768, .f32⟩
  | 33 => ⟨S4x32x384x768, .f32⟩
  | 34 => ⟨S4x1x384x768, .f32⟩
  | 35 => ⟨S4x384x768, .f32⟩
  | 36 => ⟨S4x1x384x768, .f32⟩
  | 37 => ⟨S4x32x384x768, .f32⟩
  | 38 => ⟨S4x32x384x768, .f32⟩
  | 39 => ⟨S4x32x384x768, .f32⟩
  | 40 => ⟨S4x32x384x768, .f32⟩
  | 41 => ⟨S4x1x384x768, .f32⟩
  | 42 => ⟨S4x384x768, .f32⟩
  | 43 => ⟨S4x1x384x768, .f32⟩
  | 44 => ⟨S4x32x384x768, .f32⟩
  | 45 => ⟨S4x32x384x768, .f32⟩
  | 46 => ⟨S4x32x384x768, .f32⟩
  | 47 => ⟨S4x32x384x768, .f32⟩
  | 48 => ⟨S4x1x384x768, .f32⟩
  | 49 => ⟨S4x384x768, .f32⟩
  | 50 => ⟨S4x1x384x768, .f32⟩
  | 51 => ⟨S4x32x384x768, .f32⟩
  | 52 => ⟨S4x32x384x768, .f32⟩
  | 53 => ⟨S4x32x384x768, .f32⟩
  | _ => ⟨S4x32x384x768, .f32⟩

abbrev hbmTy (i : Nat) : BufTy := match i / 128 with
  | 0 => hbmTy0_0 i
  | 1 => hbmTy0_1 i
  | _ => ⟨S4x32x384x768, .f32⟩

abbrev bufTy : (tb : Table) → Fin (tcTables nBuf tb) → BufTy
  | .hbm, ⟨i, _⟩ => hbmTy i
  | _, _ => ⟨S4x32x384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩

abbrev nD : Nat := 1
abbrev τ : Topo := Topo.v7x

variable {F : FTy → Type} [FloatOps F]

class Facts₀ : Prop where
  pads_S4x32x384x768_S4x32x388x772_000_000_220_220 : S4x32x384x768.Pads (![0, 0, 2, 2] : Fin 4 → Nat) ![0, 0, 2, 2] ![0, 0, 0, 0] S4x32x388x772
  h_S_ : 0 < S_.numel
  bcast_S_S4x32x384x768 : S_.BroadcastsInDim S4x32x384x768 (![] : Fin 0 → Fin S4x32x384x768.rank)
  slices_S4x32x388x772_S4x32x384x768_0_0_0_0 : S4x32x388x772.Slices ![0, 0, 0, 0] S4x32x384x768
  slices_S4x25x384x768_S4x1x384x768_0_0_0_0 : S4x25x384x768.Slices ![0, 0, 0, 0] S4x1x384x768
  shapeCasts_S4x1x384x768_S4x384x768 : S4x1x384x768.ShapeCasts S4x384x768
  bcast_S4x384x768_S4x1x384x768_0_2_3 : S4x384x768.BroadcastsInDim S4x1x384x768 (![0, 2, 3] : Fin 3 → Fin S4x1x384x768.rank)
  bcast_S4x1x384x768_S4x32x384x768_0_1_2_3 : S4x1x384x768.BroadcastsInDim S4x32x384x768 (![0, 1, 2, 3] : Fin 4 → Fin S4x32x384x768.rank)
  slices_S4x32x388x772_S4x32x384x768_0_0_0_1 : S4x32x388x772.Slices ![0, 0, 0, 1] S4x32x384x768
  slices_S4x25x384x768_S4x1x384x768_0_1_0_0 : S4x25x384x768.Slices ![0, 1, 0, 0] S4x1x384x768
  slices_S4x32x388x772_S4x32x384x768_0_0_0_2 : S4x32x388x772.Slices ![0, 0, 0, 2] S4x32x384x768
  slices_S4x25x384x768_S4x1x384x768_0_2_0_0 : S4x25x384x768.Slices ![0, 2, 0, 0] S4x1x384x768
  slices_S4x32x388x772_S4x32x384x768_0_0_0_3 : S4x32x388x772.Slices ![0, 0, 0, 3] S4x32x384x768
  slices_S4x25x384x768_S4x1x384x768_0_3_0_0 : S4x25x384x768.Slices ![0, 3, 0, 0] S4x1x384x768
  slices_S4x32x388x772_S4x32x384x768_0_0_0_4 : S4x32x388x772.Slices ![0, 0, 0, 4] S4x32x384x768
  slices_S4x25x384x768_S4x1x384x768_0_4_0_0 : S4x25x384x768.Slices ![0, 4, 0, 0] S4x1x384x768
  slices_S4x32x388x772_S4x32x384x768_0_0_1_0 : S4x32x388x772.Slices ![0, 0, 1, 0] S4x32x384x768
  slices_S4x25x384x768_S4x1x384x768_0_5_0_0 : S4x25x384x768.Slices ![0, 5, 0, 0] S4x1x384x768
  slices_S4x32x388x772_S4x32x384x768_0_0_1_1 : S4x32x388x772.Slices ![0, 0, 1, 1] S4x32x384x768
  slices_S4x25x384x768_S4x1x384x768_0_6_0_0 : S4x25x384x768.Slices ![0, 6, 0, 0] S4x1x384x768
  slices_S4x32x388x772_S4x32x384x768_0_0_1_2 : S4x32x388x772.Slices ![0, 0, 1, 2] S4x32x384x768
  slices_S4x25x384x768_S4x1x384x768_0_7_0_0 : S4x25x384x768.Slices ![0, 7, 0, 0] S4x1x384x768
  slices_S4x32x388x772_S4x32x384x768_0_0_1_3 : S4x32x388x772.Slices ![0, 0, 1, 3] S4x32x384x768
  slices_S4x25x384x768_S4x1x384x768_0_8_0_0 : S4x25x384x768.Slices ![0, 8, 0, 0] S4x1x384x768
  slices_S4x32x388x772_S4x32x384x768_0_0_1_4 : S4x32x388x772.Slices ![0, 0, 1, 4] S4x32x384x768
  slices_S4x25x384x768_S4x1x384x768_0_9_0_0 : S4x25x384x768.Slices ![0, 9, 0, 0] S4x1x384x768
  slices_S4x32x388x772_S4x32x384x768_0_0_2_0 : S4x32x388x772.Slices ![0, 0, 2, 0] S4x32x384x768
  slices_S4x25x384x768_S4x1x384x768_0_10_0_0 : S4x25x384x768.Slices ![0, 10, 0, 0] S4x1x384x768
  slices_S4x32x388x772_S4x32x384x768_0_0_2_1 : S4x32x388x772.Slices ![0, 0, 2, 1] S4x32x384x768
  slices_S4x25x384x768_S4x1x384x768_0_11_0_0 : S4x25x384x768.Slices ![0, 11, 0, 0] S4x1x384x768
  slices_S4x32x388x772_S4x32x384x768_0_0_2_2 : S4x32x388x772.Slices ![0, 0, 2, 2] S4x32x384x768
  slices_S4x25x384x768_S4x1x384x768_0_12_0_0 : S4x25x384x768.Slices ![0, 12, 0, 0] S4x1x384x768
  slices_S4x32x388x772_S4x32x384x768_0_0_2_3 : S4x32x388x772.Slices ![0, 0, 2, 3] S4x32x384x768
  slices_S4x25x384x768_S4x1x384x768_0_13_0_0 : S4x25x384x768.Slices ![0, 13, 0, 0] S4x1x384x768
  slices_S4x32x388x772_S4x32x384x768_0_0_2_4 : S4x32x388x772.Slices ![0, 0, 2, 4] S4x32x384x768
  slices_S4x25x384x768_S4x1x384x768_0_14_0_0 : S4x25x384x768.Slices ![0, 14, 0, 0] S4x1x384x768
  slices_S4x32x388x772_S4x32x384x768_0_0_3_0 : S4x32x388x772.Slices ![0, 0, 3, 0] S4x32x384x768
  slices_S4x25x384x768_S4x1x384x768_0_15_0_0 : S4x25x384x768.Slices ![0, 15, 0, 0] S4x1x384x768
  slices_S4x32x388x772_S4x32x384x768_0_0_3_1 : S4x32x388x772.Slices ![0, 0, 3, 1] S4x32x384x768
  slices_S4x25x384x768_S4x1x384x768_0_16_0_0 : S4x25x384x768.Slices ![0, 16, 0, 0] S4x1x384x768
  slices_S4x32x388x772_S4x32x384x768_0_0_3_2 : S4x32x388x772.Slices ![0, 0, 3, 2] S4x32x384x768
  slices_S4x25x384x768_S4x1x384x768_0_17_0_0 : S4x25x384x768.Slices ![0, 17, 0, 0] S4x1x384x768
  slices_S4x32x388x772_S4x32x384x768_0_0_3_3 : S4x32x388x772.Slices ![0, 0, 3, 3] S4x32x384x768
  slices_S4x25x384x768_S4x1x384x768_0_18_0_0 : S4x25x384x768.Slices ![0, 18, 0, 0] S4x1x384x768
  slices_S4x32x388x772_S4x32x384x768_0_0_3_4 : S4x32x388x772.Slices ![0, 0, 3, 4] S4x32x384x768
  slices_S4x25x384x768_S4x1x384x768_0_19_0_0 : S4x25x384x768.Slices ![0, 19, 0, 0] S4x1x384x768
  slices_S4x32x388x772_S4x32x384x768_0_0_4_0 : S4x32x388x772.Slices ![0, 0, 4, 0] S4x32x384x768
  slices_S4x25x384x768_S4x1x384x768_0_20_0_0 : S4x25x384x768.Slices ![0, 20, 0, 0] S4x1x384x768
  slices_S4x32x388x772_S4x32x384x768_0_0_4_1 : S4x32x388x772.Slices ![0, 0, 4, 1] S4x32x384x768
  slices_S4x25x384x768_S4x1x384x768_0_21_0_0 : S4x25x384x768.Slices ![0, 21, 0, 0] S4x1x384x768
  slices_S4x32x388x772_S4x32x384x768_0_0_4_2 : S4x32x388x772.Slices ![0, 0, 4, 2] S4x32x384x768
  slices_S4x25x384x768_S4x1x384x768_0_22_0_0 : S4x25x384x768.Slices ![0, 22, 0, 0] S4x1x384x768
  slices_S4x32x388x772_S4x32x384x768_0_0_4_3 : S4x32x388x772.Slices ![0, 0, 4, 3] S4x32x384x768
  slices_S4x25x384x768_S4x1x384x768_0_23_0_0 : S4x25x384x768.Slices ![0, 23, 0, 0] S4x1x384x768
  slices_S4x32x388x772_S4x32x384x768_0_0_4_4 : S4x32x388x772.Slices ![0, 0, 4, 4] S4x32x384x768
  slices_S4x25x384x768_S4x1x384x768_0_24_0_0 : S4x25x384x768.Slices ![0, 24, 0, 0] S4x1x384x768

variable [Facts₀]

class Facts : Prop extends Facts₀ where

variable [Facts]
-- ==== Proof.LgaSpec.lean ====
/-
  Local guided aggregation, as one function of whole arrays.

  The padded image `P` has shape [4, 32, 388, 772]: the image with a border of two zero rows and two zero
  columns on each side of its last two axes. The weights `W` have shape [4, 25, 384, 768]: for every
  pixel of every batch entry a 5 × 5 filter, its 25 taps laid out row by row along axis 1. The result at
  (n, c, h, w) is the sum over the taps (di, dj), taken in the order (0,0), (0,1), …, (4,4) and
  accumulated from the left starting at zero, of

      P[n, c, h + di, w + dj] · W[n, 5·di + dj, h, w].

  Both programs of the certificate compute exactly this left fold, so no law of the extended reals beyond
  congruence of `+` and `·` is ever used: the two sides are compared tap by tap.
-/
import Idealize.ShloMosaic.PureOps.Ideal
import Idealize.ShloMosaic.Lib.ValueIdx
import Idealize.ShloMosaic.Lib.Pipeline.Value

noncomputable section

namespace Cert.Lga

open Idealize.ShloMosaic

/-- The image and the result: [batch, channel, row, column]. -/
abbrev Simg : Shape := ⟨4, ![4, 32, 384, 768]⟩
/-- The image with its zero border of width two on the last two axes. -/
abbrev Spad : Shape := ⟨4, ![4, 32, 388, 772]⟩
/-- The per-pixel filters: [batch, tap, row, column]. -/
abbrev Swt : Shape := ⟨4, ![4, 25, 384, 768]⟩

/-- Where tap (di, dj) of the result's pixel `i` reads the padded image: same batch and channel, row and
    column moved down and right by the tap's offsets. -/
def haloIdx (i : Simg.Idx) (di dj : Fin 5) : Spad.Idx := fun a => match a with
  | ⟨0, _⟩ => ⟨(i 0).val, by have h : (i 0).val < 4 := (i 0).isLt; show (i 0).val < 4; omega⟩
  | ⟨1, _⟩ => ⟨(i 1).val, by have h : (i 1).val < 32 := (i 1).isLt; show (i 1).val < 32; omega⟩
  | ⟨2, _⟩ => ⟨(i 2).val + di.val, by have h : (i 2).val < 384 := (i 2).isLt; have := di.isLt; show (i 2).val + di.val < 388; omega⟩
  | ⟨3, _⟩ => ⟨(i 3).val + dj.val, by have h : (i 3).val < 768 := (i 3).isLt; have := dj.isLt; show (i 3).val + dj.val < 772; omega⟩

/-- Where tap `k` of the result's pixel `i` reads the filters: same batch, row and column, plane `k`. -/
def tapIdx (i : Simg.Idx) (k : Fin 25) : Swt.Idx := fun a => match a with
  | ⟨0, _⟩ => ⟨(i 0).val, by have h : (i 0).val < 4 := (i 0).isLt; show (i 0).val < 4; omega⟩
  | ⟨1, _⟩ => ⟨k.val, by have := k.isLt; show k.val < 25; omega⟩
  | ⟨2, _⟩ => ⟨(i 2).val, by have h : (i 2).val < 384 := (i 2).isLt; show (i 2).val < 384; omega⟩
  | ⟨3, _⟩ => ⟨(i 3).val, by have h : (i 3).val < 768 := (i 3).isLt; show (i 3).val < 768; omega⟩

theorem haloIdx_val0 (i : Simg.Idx) (di dj : Fin 5) : (haloIdx i di dj 0).val = (i 0).val := rfl
theorem haloIdx_val1 (i : Simg.Idx) (di dj : Fin 5) : (haloIdx i di dj 1).val = (i 1).val := rfl
theorem haloIdx_val2 (i : Simg.Idx) (di dj : Fin 5) : (haloIdx i di dj 2).val = (i 2).val + di.val := rfl
theorem haloIdx_val3 (i : Simg.Idx) (di dj : Fin 5) : (haloIdx i di dj 3).val = (i 3).val + dj.val := rfl
theorem tapIdx_val0 (i : Simg.Idx) (k : Fin 25) : (tapIdx i k 0).val = (i 0).val := rfl
theorem tapIdx_val1 (i : Simg.Idx) (k : Fin 25) : (tapIdx i k 1).val = k.val := rfl
theorem tapIdx_val2 (i : Simg.Idx) (k : Fin 25) : (tapIdx i k 2).val = (i 2).val := rfl
theorem tapIdx_val3 (i : Simg.Idx) (k : Fin 25) : (tapIdx i k 3).val = (i 3).val := rfl

/-- Two indices of the padded image are equal when their four coordinates are. -/
theorem Spad_ext {x y : Spad.Idx} (h0 : (x 0).val = (y 0).val) (h1 : (x 1).val = (y 1).val)
    (h2 : (x 2).val = (y 2).val) (h3 : (x 3).val = (y 3).val) : x = y :=
  funext fun a => Fin.ext <| match a with | ⟨0, _⟩ => h0 | ⟨1, _⟩ => h1 | ⟨2, _⟩ => h2 | ⟨3, _⟩ => h3

/-- Two indices of the filters are equal when their four coordinates are. -/
theorem Swt_ext {x y : Swt.Idx} (h0 : (x 0).val = (y 0).val) (h1 : (x 1).val = (y 1).val)
    (h2 : (x 2).val = (y 2).val) (h3 : (x 3).val = (y 3).val) : x = y :=
  funext fun a => Fin.ext <| match a with | ⟨0, _⟩ => h0 | ⟨1, _⟩ => h1 | ⟨2, _⟩ => h2 | ⟨3, _⟩ => h3

/-- The 25 products, image value times weight, added from the left onto `z` in the taps' row-major order. -/
def tapFold (z : EReal) (p : Fin 5 → Fin 5 → EReal) (w : Fin 25 → EReal) : EReal :=
  z + p 0 0 * w 0 + p 0 1 * w 1 + p 0 2 * w 2 + p 0 3 * w 3 + p 0 4 * w 4
    + p 1 0 * w 5 + p 1 1 * w 6 + p 1 2 * w 7 + p 1 3 * w 8 + p 1 4 * w 9
    + p 2 0 * w 10 + p 2 1 * w 11 + p 2 2 * w 12 + p 2 3 * w 13 + p 2 4 * w 14
    + p 3 0 * w 15 + p 3 1 * w 16 + p 3 2 * w 17 + p 3 3 * w 18 + p 3 4 * w 19
    + p 4 0 * w 20 + p 4 1 * w 21 + p 4 2 * w 22 + p 4 3 * w 23 + p 4 4 * w 24

/-- The aggregation: at pixel `i` the fold of the padded image's 5 × 5 neighbourhood against the pixel's filter,
    from the zero of f32. -/
def lga (P : Spad.Idx → EReal) (W : Swt.Idx → EReal) : Simg.Idx → EReal := fun i =>
  tapFold (Ideal.ofBits .f32 0x00000000#32) (fun di dj => P (haloIdx i di dj)) (fun k => W (tapIdx i k))

/-- The fold depends on the image values and the weights only through their values at the 25 taps. -/
theorem tapFold_congr {z : EReal} {p p' : Fin 5 → Fin 5 → EReal} {w w' : Fin 25 → EReal}
    (hp : ∀ di dj, p di dj = p' di dj) (hw : ∀ k, w k = w' k) : tapFold z p w = tapFold z p' w' := by
  obtain rfl : p = p' := funext fun di => funext fun dj => hp di dj
  obtain rfl : w = w' := funext hw
  rfl

section Border

variable {F : FTy → Type} [FloatOps F]

/-- A scalar. -/
abbrev Sscalar : Shape := ⟨0, ![]⟩

theorem image_pads : Simg.Pads (![0, 0, 2, 2] : Fin 4 → Nat) ![0, 0, 2, 2] ![0, 0, 0, 0] Spad := by decide
theorem scalar_pos : 0 < Sscalar.numel := by decide

/-- The image with its border: two rows and two columns on every side of the last two axes, filled with the
    float that the integer 0 converts to. Both programs make it by the same host operation. -/
def padded (x : FVec F Simg .f32) : FVec F Spad .f32 :=
  pad Spad ![0, 0, 2, 2] ![0, 0, 2, 2] ![0, 0, 0, 0] x (sitofp .f32 (constantI Sscalar 32 0#32)) image_pads scalar_pos

end Border

/-- One step of the fold on both sides: equal accumulators, equal image values and equal weights give equal
    accumulators after the step. -/
theorem acc_step {a a' p p' w w' : EReal} (ha : a = a') (hp : p = p') (hw : w = w') : a + p * w = a' + p' * w' := by
  subst ha hp hw; rfl

end Cert.Lga

end
-- ==== Proof.LgaBlockRead.lean ====
/-
  The kernel's operations read at one pixel of a block.

  At a grid point the kernel holds one channel of one batch entry of the padded image, a [1, 1, 388, 772]
  block, and that batch entry's 25 filter planes, a [1, 25, 384, 768] block, and writes a [1, 1, 384, 768]
  block of the result. It drops the padded block's leading unit axis and cuts, for tap (di, dj), the
  window of the result's extent at row di and column dj; it loads filter plane k as a [1, 1, 384, 768]
  slab, squeezes it to [384, 768] and gives it one unit axis back. Read at the block's pixel (0, 0, h, w)
  these are the padded block at (0, 0, h + di, w + dj) and the filter block at (0, k, h, w).
-/
import proofs.«133124_j89395449299015_1_alg».proof.Proof.LgaSpec
import Idealize.ShloMosaic.Lib.Pipeline.FrameBody

noncomputable section

namespace Cert.Lga

open Idealize.ShloMosaic Idealize.ShloMosaic.ValueIdx

/-- One channel of one batch entry of the padded image. -/
abbrev Bpad : Shape := ⟨4, ![1, 1, 388, 772]⟩
/-- One batch entry's filters. -/
abbrev Bwt : Shape := ⟨4, ![1, 25, 384, 768]⟩
/-- One channel of one batch entry of the result; also one filter plane as loaded. -/
abbrev Bout : Shape := ⟨4, ![1, 1, 384, 768]⟩
/-- The padded block without its batch axis. -/
abbrev Bpad3 : Shape := ⟨3, ![1, 388, 772]⟩
/-- The result block without its batch axis: the shape the body accumulates in. -/
abbrev Bout3 : Shape := ⟨3, ![1, 384, 768]⟩
/-- A filter plane squeezed. -/
abbrev Bplane : Shape := ⟨2, ![384, 768]⟩

/-- Where tap (di, dj) of the block's pixel `y` reads the padded block. -/
def blkHalo (y : Bout.Idx) (di dj : Fin 5) : Bpad.Idx := fun a => match a with
  | ⟨0, _⟩ => ⟨0, by show 0 < 1; omega⟩
  | ⟨1, _⟩ => ⟨0, by show 0 < 1; omega⟩
  | ⟨2, _⟩ => ⟨(y 2).val + di.val, by have h : (y 2).val < 384 := (y 2).isLt; have := di.isLt; show (y 2).val + di.val < 388; omega⟩
  | ⟨3, _⟩ => ⟨(y 3).val + dj.val, by have h : (y 3).val < 768 := (y 3).isLt; have := dj.isLt; show (y 3).val + dj.val < 772; omega⟩

/-- Where tap `k` of the block's pixel `y` reads the filter block. -/
def blkTap (y : Bout.Idx) (k : Fin 25) : Bwt.Idx := fun a => match a with
  | ⟨0, _⟩ => ⟨0, by show 0 < 1; omega⟩
  | ⟨1, _⟩ => ⟨k.val, by have := k.isLt; show k.val < 25; omega⟩
  | ⟨2, _⟩ => ⟨(y 2).val, by have h : (y 2).val < 384 := (y 2).isLt; show (y 2).val < 384; omega⟩
  | ⟨3, _⟩ => ⟨(y 3).val, by have h : (y 3).val < 768 := (y 3).isLt; show (y 3).val < 768; omega⟩

/-- The block's pixel `y` in the shape the body accumulates in. -/
def accIdx (y : Bout.Idx) : Bout3.Idx := fun a => match a with
  | ⟨0, _⟩ => ⟨0, by show 0 < 1; omega⟩
  | ⟨1, _⟩ => ⟨(y 2).val, by have h : (y 2).val < 384 := (y 2).isLt; show (y 2).val < 384; omega⟩
  | ⟨2, _⟩ => ⟨(y 3).val, by have h : (y 3).val < 768 := (y 3).isLt; show (y 3).val < 768; omega⟩

/-- The accumulator, given back its batch axis for the store, read at pixel `y` is the accumulator at `y`. -/
theorem unsqueeze_apply (A : Bout3.Idx → EReal) (h : Bout3.ShapeCasts Bout) (y : Bout.Idx) :
    shapeCast Bout A h y = A (accIdx y) := by
  refine shapeCast_apply A h y (accIdx y) ?_
  have h0 : (y 0).val < 1 := (y 0).isLt
  have h1 : (y 1).val < 1 := (y 1).isLt
  rw [Shape.rowMajor_val_four, Shape.rowMajor_val_three]
  show ((0 * 384 + (y 2).val) * 768 + (y 3).val) = ((((y 0).val * 1 + (y 1).val) * 384 + (y 2).val) * 768 + (y 3).val)
  have e0 : (y 0).val = 0 := by omega
  have e1 : (y 1).val = 0 := by omega
  rw [e0, e1]

/-- The window of the padded block at offsets (di, dj), read at pixel `y`, is the padded block at `y` moved by
    the offsets. -/
theorem blockWindow_apply (x0 : Bpad.Idx → EReal) (di dj : Fin 5) (hc : Bpad.ShapeCasts Bpad3)
    (hs : Bpad3.Slices ![0, di.val, dj.val] Bout3) (y : Bout.Idx) :
    extractStridedSlice Bout3 ![0, di.val, dj.val] (shapeCast Bpad3 x0 hc) hs (accIdx y) = x0 (blkHalo y di dj) := by
  let k3 : Bpad3.Idx := fun a => match a with
    | ⟨0, _⟩ => ⟨0, by show 0 < 1; omega⟩
    | ⟨1, _⟩ => ⟨(y 2).val + di.val, by have h : (y 2).val < 384 := (y 2).isLt; have := di.isLt; show (y 2).val + di.val < 388; omega⟩
    | ⟨2, _⟩ => ⟨(y 3).val + dj.val, by have h : (y 3).val < 768 := (y 3).isLt; have := dj.isLt; show (y 3).val + dj.val < 772; omega⟩
  refine (extractStridedSlice_apply _ _ hs (accIdx y) k3 fun a => ?_).trans ?_
  · match a with
    | ⟨0, _⟩ => show 0 = 0 + 0; rfl
    | ⟨1, _⟩ => show (y 2).val + di.val = di.val + (y 2).val; omega
    | ⟨2, _⟩ => show (y 3).val + dj.val = dj.val + (y 3).val; omega
  refine shapeCast_apply x0 hc k3 (blkHalo y di dj) ?_
  rw [Shape.rowMajor_val_four, Shape.rowMajor_val_three]
  show (((0 * 1 + 0) * 388 + ((y 2).val + di.val)) * 772 + ((y 3).val + dj.val)) = ((0 * 388 + ((y 2).val + di.val)) * 772 + ((y 3).val + dj.val))
  omega

/-- A loaded filter plane, squeezed and given one unit axis back, read at pixel `y`, is the plane at `y`. -/
theorem slab_apply (wl : Bout.Idx → EReal) (h1 : Bout.ShapeCasts Bplane) (h2 : Bplane.ShapeCasts Bout3) (y : Bout.Idx) :
    shapeCast Bout3 (shapeCast Bplane wl h1) h2 (accIdx y) = wl y := by
  let k2 : Bplane.Idx := fun a => match a with
    | ⟨0, _⟩ => ⟨(y 2).val, by have h : (y 2).val < 384 := (y 2).isLt; show (y 2).val < 384; omega⟩
    | ⟨1, _⟩ => ⟨(y 3).val, by have h : (y 3).val < 768 := (y 3).isLt; show (y 3).val < 768; omega⟩
  have h0 : (y 0).val < 1 := (y 0).isLt
  have h1' : (y 1).val < 1 := (y 1).isLt
  refine (shapeCast_apply _ h2 (accIdx y) k2 ?_).trans ?_
  · rw [Shape.rowMajor_val_two, Shape.rowMajor_val_three]
    show (y 2).val * 768 + (y 3).val = (0 * 384 + (y 2).val) * 768 + (y 3).val
    omega
  refine shapeCast_apply wl h1 k2 y ?_
  rw [Shape.rowMajor_val_four, Shape.rowMajor_val_two]
  show ((((y 0).val * 1 + (y 1).val) * 384 + (y 2).val) * 768 + (y 3).val) = (y 2).val * 768 + (y 3).val
  have e0 : (y 0).val = 0 := by omega
  have e1 : (y 1).val = 0 := by omega
  rw [e0, e1]
  omega

/-- Two indices of the filter block are equal when their four coordinates are. -/
theorem Swt_blk_ext {x y : Bwt.Idx} (h0 : (x 0).val = (y 0).val) (h1 : (x 1).val = (y 1).val)
    (h2 : (x 2).val = (y 2).val) (h3 : (x 3).val = (y 3).val) : x = y :=
  funext fun a => Fin.ext <| match a with | ⟨0, _⟩ => h0 | ⟨1, _⟩ => h1 | ⟨2, _⟩ => h2 | ⟨3, _⟩ => h3

/-- The slab the body loads for tap `k`, at pixel `y`, is the filter block at plane `k` of `y`. -/
theorem loadPlane_apply (x1 : Vec Ideal Bwt .f32) (k : Fin 25) (inb : ∀ a, (![0, k.val, 0, 0] : Fin 4 → Nat) a + Bout.size a ≤ Bwt.size a)
    (y : Bout.Idx) :
    View.ld (Val := Elt Ideal) (e' := .f32) x1 (Rect.unit (s := Bwt) ![0, k.val, 0, 0] Bout.size inb) y = x1 (blkTap y k) := by
  have h0 : (y 0).val < 1 := (y 0).isLt
  have h1 : (y 1).val < 1 := (y 1).isLt
  show x1 ((Rect.unit (s := Bwt) ![0, k.val, 0, 0] Bout.size inb).idx y) = x1 (blkTap y k)
  refine congrArg x1 (Swt_blk_ext ?_ ?_ ?_ ?_)
  · show 0 + 1 * (y 0).val = 0; omega
  · show k.val + 1 * (y 1).val = k.val; omega
  · show 0 + 1 * (y 2).val = (y 2).val; omega
  · show 0 + 1 * (y 3).val = (y 3).val; omega

end Cert.Lga

end
-- ==== Proof.LgaKernelBlock.lean ====
/-
  What one grid point of the kernel leaves in its result block.

  The body loads the padded block once and each of the 25 filter planes once, and stores once: the
  accumulator after all 25 taps. At pixel y of the block the stored value is therefore the left fold, from
  zero, of padded-block value times filter value over the taps in row-major order — the aggregation's own
  fold, read inside the block. It is proved tap by tap: the two folds have the same shape, and each of the
  kernel's window and plane reads is the block read at the tap's index.
-/
import proofs.«133124_j89395449299015_1_alg».proof.Proof.Gen.KernelIdeal.Frame
import proofs.«133124_j89395449299015_1_alg».proof.Proof.LgaBlockRead
import Idealize.ShloMosaic.Lib.Pipeline.Value

noncomputable section

namespace Cert.KernelIdeal.Lga

open Cert.KernelIdeal Cert.KernelIdeal.Gen Cert.Lga Idealize.ShloMosaic Idealize.ShloMosaic.TcCoe Idealize.ShloMosaic.ValueIdx

theorem zero4 : (![0, 0, 0, 0] : Fin 4 → Nat) = fun _ => 0 := funext fun a => by fin_cases a <;> rfl

set_option maxHeartbeats 1000000 in
/-- The result block at pixel `y`, from the padded block `x0` and the filter block `x1`. -/
theorem block_eq (x0 : Vec Ideal S1x1x388x772 .f32) (x1 : Vec Ideal S1x25x384x768 .f32) (y : S1x1x384x768.Idx) :
    out0_2 (F := Ideal) x0 x1 y
      = tapFold (Ideal.ofBits .f32 0x00000000#32) (fun di dj => x0 (blkHalo y di dj)) (fun k => x1 (blkTap y k)) := by
  unfold out0_2
  rw [View.canon_unit_zero zero4]
  simp only [View.ld_unit_zero (S := S1x1x388x772) zero4]
  unfold k0_pay1 k0_pay6 k0_pay5 k0_pay4 k0_pay3 k0_pay2
  dsimp only
  refine (unsqueeze_apply _ _ y).trans ?_
  simp only [addf_apply, mulf_apply]
  unfold tapFold
  refine acc_step ?_ (blockWindow_apply x0 4 4 _ _ y) ((slab_apply _ _ _ y).trans (loadPlane_apply x1 24 _ y))
  refine acc_step ?_ (blockWindow_apply x0 4 3 _ _ y) ((slab_apply _ _ _ y).trans (loadPlane_apply x1 23 _ y))
  refine acc_step ?_ (blockWindow_apply x0 4 2 _ _ y) ((slab_apply _ _ _ y).trans (loadPlane_apply x1 22 _ y))
  refine acc_step ?_ (blockWindow_apply x0 4 1 _ _ y) ((slab_apply _ _ _ y).trans (loadPlane_apply x1 21 _ y))
  refine acc_step ?_ (blockWindow_apply x0 4 0 _ _ y) ((slab_apply _ _ _ y).trans (loadPlane_apply x1 20 _ y))
  refine acc_step ?_ (blockWindow_apply x0 3 4 _ _ y) ((slab_apply _ _ _ y).trans (loadPlane_apply x1 19 _ y))
  refine acc_step ?_ (blockWindow_apply x0 3 3 _ _ y) ((slab_apply _ _ _ y).trans (loadPlane_apply x1 18 _ y))
  refine acc_step ?_ (blockWindow_apply x0 3 2 _ _ y) ((slab_apply _ _ _ y).trans (loadPlane_apply x1 17 _ y))
  refine acc_step ?_ (blockWindow_apply x0 3 1 _ _ y) ((slab_apply _ _ _ y).trans (loadPlane_apply x1 16 _ y))
  refine acc_step ?_ (blockWindow_apply x0 3 0 _ _ y) ((slab_apply _ _ _ y).trans (loadPlane_apply x1 15 _ y))
  refine acc_step ?_ (blockWindow_apply x0 2 4 _ _ y) ((slab_apply _ _ _ y).trans (loadPlane_apply x1 14 _ y))
  refine acc_step ?_ (blockWindow_apply x0 2 3 _ _ y) ((slab_apply _ _ _ y).trans (loadPlane_apply x1 13 _ y))
  refine acc_step ?_ (blockWindow_apply x0 2 2 _ _ y) ((slab_apply _ _ _ y).trans (loadPlane_apply x1 12 _ y))
  refine acc_step ?_ (blockWindow_apply x0 2 1 _ _ y) ((slab_apply _ _ _ y).trans (loadPlane_apply x1 11 _ y))
  refine acc_step ?_ (blockWindow_apply x0 2 0 _ _ y) ((slab_apply _ _ _ y).trans (loadPlane_apply x1 10 _ y))
  refine acc_step ?_ (blockWindow_apply x0 1 4 _ _ y) ((slab_apply _ _ _ y).trans (loadPlane_apply x1 9 _ y))
  refine acc_step ?_ (blockWindow_apply x0 1 3 _ _ y) ((slab_apply _ _ _ y).trans (loadPlane_apply x1 8 _ y))
  refine acc_step ?_ (blockWindow_apply x0 1 2 _ _ y) ((slab_apply _ _ _ y).trans (loadPlane_apply x1 7 _ y))
  refine acc_step ?_ (blockWindow_apply x0 1 1 _ _ y) ((slab_apply _ _ _ y).trans (loadPlane_apply x1 6 _ y))
  refine acc_step ?_ (blockWindow_apply x0 1 0 _ _ y) ((slab_apply _ _ _ y).trans (loadPlane_apply x1 5 _ y))
  refine acc_step ?_ (blockWindow_apply x0 0 4 _ _ y) ((slab_apply _ _ _ y).trans (loadPlane_apply x1 4 _ y))
  refine acc_step ?_ (blockWindow_apply x0 0 3 _ _ y) ((slab_apply _ _ _ y).trans (loadPlane_apply x1 3 _ y))
  refine acc_step ?_ (blockWindow_apply x0 0 2 _ _ y) ((slab_apply _ _ _ y).trans (loadPlane_apply x1 2 _ y))
  refine acc_step ?_ (blockWindow_apply x0 0 1 _ _ y) ((slab_apply _ _ _ y).trans (loadPlane_apply x1 1 _ y))
  refine acc_step ?_ (blockWindow_apply x0 0 0 _ _ y) ((slab_apply _ _ _ y).trans (loadPlane_apply x1 0 _ y))
  rfl

end Cert.KernelIdeal.Lga

end
-- ==== Proof.LgaKernelRun.lean ====
/-
  The kernel's run: its result array is the aggregation of the padded image and the filters.

  Grid point t = (n, c) stages channel c of batch entry n of the padded image, batch entry n's filters, and
  writes back channel c of batch entry n of the result: the three windows move together along the batch
  axis, the image's and the result's along the channel axis too, and none moves along rows or columns.
  So what the point writes back is that block of the aggregation taken over the whole arrays, and since
  every (n, c) is some point's, the blocks cover the result array.
-/
import proofs.«133124_j89395449299015_1_alg».proof.Proof.Gen.KernelIdeal.Frame
import proofs.«133124_j89395449299015_1_alg».proof.Proof.LgaKernelBlock
import Idealize.ShloMosaic.Lib.Pipeline.Value
import Idealize.ShloMosaic.Lib.StableHlo.Run

set_option maxRecDepth 16384

noncomputable section

namespace Cert.KernelIdeal.Lga

open Cert.KernelIdeal Cert.KernelIdeal.Gen Cert.Lga Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel region finds the padded image in its first operand: the host operations before it made it from
    the first argument. -/
theorem entry_padded (c : Dev nD) :
    (V m c main_v0 : S4x32x388x772.Idx → EReal) = padded (F := Ideal) (m ((c : Thread nD τ).loc main_arg0)) := by
  dsimp only [Gen.V]
  simp only [Gen.hostOps0, Gen.hostOps0_1, List.flatten_cons, List.flatten_nil, List.append_nil, List.cons_append,
    List.nil_append]
  after_results_simp
  all_goals rfl

/-- How the three windows' block indices are related, decided over the 128 grid points. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (2 : Fin 4) = 0 ∧ win0_2.index t (3 : Fin 4) = 0 :=
  (by decide +kernel : ∀ t : Fin grid0.N, _)

/-- Every (batch entry, channel) is some grid point's block of the result. -/
theorem index_onto : ∀ (n : Fin 4) (ch : Fin 32), ∃ t : Fin cfg0.N, win0_2.index t = ![n.val, ch.val, 0, 0] :=
  (by decide +kernel : ∀ (n : Fin 4) (ch : Fin 32), ∃ t : Fin grid0.N, win0_2.index t = ![n.val, ch.val, 0, 0])

/-- The padded block at a tap of the block's pixel `y` is the padded image at that tap of the pixel's place in
    the result array. -/
theorem padBlock_read (c : Dev nD) (t : Fin cfg0.N) (y : S1x1x384x768.Idx) (di dj : Fin 5) :
    (iblk m c 0 t : Vec Ideal S1x1x388x772 .f32) (blkHalo y di dj)
      = (V m c main_v0 : S4x32x388x772.Idx → EReal) (haloIdx (((cfg0.win 2).blk t).view.emb y) di dj) := by
  obtain ⟨e00, e01, e02, e03, e10, e11, e12, e13, e22, e23⟩ := index_facts t
  have hy0 : (y 0).val < 1 := (y 0).isLt
  have hy1 : (y 1).val < 1 := (y 1).isLt
  unfold iblk
  rw [View.read_apply]
  show V m c main_v0 _ = V m c main_v0 _
  refine congrArg (V m c main_v0) (Spad_ext ?_ ?_ ?_ ?_)
  · show win0_0.index t (0 : Fin 4) * 1 + 1 * 0 = win0_2.index t (0 : Fin 4) * 1 + 1 * (y 0).val
    omega
  · show win0_0.index t (1 : Fin 4) * 1 + 1 * 0 = win0_2.index t (1 : Fin 4) * 1 + 1 * (y 1).val
    omega
  · show win0_0.index t (2 : Fin 4) * 388 + 1 * ((y 2).val + di.val) = (win0_2.index t (2 : Fin 4) * 384 + 1 * (y 2).val) + di.val
    omega
  · show win0_0.index t (3 : Fin 4) * 772 + 1 * ((y 3).val + dj.val) = (win0_2.index t (3 : Fin 4) * 768 + 1 * (y 3).val) + dj.val
    omega

/-- The filter block at tap `k` of the block's pixel `y` is the filter array at tap `k` of the pixel's place in
    the result array. -/
theorem wtBlock_read (c : Dev nD) (t : Fin cfg0.N) (y : S1x1x384x768.Idx) (k : Fin 25) :
    (iblk m c 1 t : Vec Ideal S1x25x384x768 .f32) (blkTap y k)
      = (V m c main_arg1 : S4x25x384x768.Idx → EReal) (tapIdx (((cfg0.win 2).blk t).view.emb y) k) := by
  obtain ⟨e00, e01, e02, e03, e10, e11, e12, e13, e22, e23⟩ := index_facts t
  have hy0 : (y 0).val < 1 := (y 0).isLt
  unfold iblk
  rw [View.read_apply]
  show V m c main_arg1 _ = V m c main_arg1 _
  refine congrArg (V m c main_arg1) (Swt_ext ?_ ?_ ?_ ?_)
  · show win0_1.index t (0 : Fin 4) * 1 + 1 * 0 = win0_2.index t (0 : Fin 4) * 1 + 1 * (y 0).val
    omega
  · show win0_1.index t (1 : Fin 4) * 25 + 1 * k.val = k.val
    omega
  · show win0_1.index t (2 : Fin 4) * 384 + 1 * (y 2).val = win0_2.index t (2 : Fin 4) * 384 + 1 * (y 2).val
    omega
  · show win0_1.index t (3 : Fin 4) * 768 + 1 * (y 3).val = win0_2.index t (3 : Fin 4) * 768 + 1 * (y 3).val
    omega

/-- What grid point `t` writes back is block `t` of the aggregation over the arrays as the region finds them. -/
theorem flushed_eq (c : Dev nD) (t : Fin cfg0.N) :
    (dats m 0 c).flushed 2 t
      = ((cfg0.win 2).blk t).view.read (Elt Ideal) (lga (V m c main_v0) (V m c main_arg1)) := by
  show (cfg0.win 2).cut (grid0.coords t) ((dats m 0 c).after 2 t) = _
  rw [after0_2]
  funext y
  show out0_2 (F := Ideal) (iblk m c 0 t) (iblk m c 1 t) y
    = lga (V m c main_v0) (V m c main_arg1) (((cfg0.win 2).blk t).view.emb y)
  refine (block_eq (iblk m c 0 t) (iblk m c 1 t) y).trans ?_
  unfold lga
  exact tapFold_congr (fun di dj => padBlock_read m c t y di dj) (fun k => wtBlock_read m c t y k)

/-- An index of the result array lies in point `t`'s block iff each coordinate lies in the block's range. -/
theorem mem_block (t : Fin cfg0.N) (i : S4x32x384x768.Idx) :
    i ∈ ((cfg0.win 2).blk t).view.set
      ↔ ∀ a : Fin 4, win0_2.index t a * S1x1x384x768.size a ≤ (i a).val
          ∧ (i a).val < win0_2.index t a * S1x1x384x768.size a + S1x1x384x768.size a := by
  show i ∈ ((View.whole main_v1).slice (win0_2.rect t)).set ↔ _
  rw [View.set_slice_whole, Rect.mem_set_unit]
  exact Iff.rfl

/-- The result array after the run is the aggregation of the arrays as the region finds them. -/
theorem final (c : Dev nD) : (dats m 0 c).arrAt 2 cfg0.N = lga (V m c main_v0) (V m c main_arg1) :=
  (dats m 0 c).arrAt_eq_of_cover 2 (lga (V m c main_v0) (V m c main_arg1)) (fun t _ => flushed_eq m c t) fun i => by
    have h0 : (i 0).val < 4 := (i 0).isLt
    have h1 : (i 1).val < 32 := (i 1).isLt
    have h2 : (i 2).val < 384 := (i 2).isLt
    have h3 : (i 3).val < 768 := (i 3).isLt
    obtain ⟨t, ht⟩ := index_onto ⟨(i 0).val, h0⟩ ⟨(i 1).val, h1⟩
    have q0 : win0_2.index t (0 : Fin 4) = (i 0).val := congrFun ht 0
    have q1 : win0_2.index t (1 : Fin 4) = (i 1).val := congrFun ht 1
    have q2 : win0_2.index t (2 : Fin 4) = 0 := congrFun ht 2
    have q3 : win0_2.index t (3 : Fin 4) = 0 := congrFun ht 3
    refine ⟨t, flush0_2 t, ?_⟩
    rw [mem_block]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 1 ≤ (i 1).val ∧ (i 1).val < win0_2.index t (1 : Fin 4) * 1 + 1; omega
    | ⟨2, _⟩ => show win0_2.index t (2 : Fin 4) * 384 ≤ (i 2).val ∧ (i 2).val < win0_2.index t (2 : Fin 4) * 384 + 384; omega
    | ⟨3, _⟩ => show win0_2.index t (3 : Fin 4) * 768 ≤ (i 3).val ∧ (i 3).val < win0_2.index t (3 : Fin 4) * 768 + 768; omega

/-- Every weakly fair execution of the kernel program terminates with its result at the aggregation of the
    padded first argument and the second argument, and both arguments as launched. -/
theorem run : θ_run defs (onTc (τ := τ) (main (F := Ideal))) ⟨m, fun _ => 0, ρ⟩ fun r => ∀ c : Dev nD,
      r.2.mem ((c : Thread nD τ).loc main_v1)
          = lga (padded (F := Ideal) (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans ((final m c).trans (by rw [entry_padded m c, V_main_arg1 m c])),
       ((h c).2 main_arg0 (Pipeline.mem_restRefs_of main_arg0 (by decide) (by decide))).trans (V_main_arg0 m c),
       ((h c).1 1).trans (((dats m 0 c).arrAt_in 1 rfl _).trans ((A_eq m c 1).trans (V_main_arg1 m c)))⟩)
    (run_main m ρ)

end Cert.KernelIdeal.Lga

end
-- ==== Proof.LgaRefOps.lean ====
/-
  The reference program as three lines of host operations.

  The reference's entry function is printed in three consecutive parts. Each part is a straight line of
  host operations, listed here in order (the pad function's two operations in the place of its call), with
  the facts the library's theorem for a straight-line host program asks of such a line: it is the part's
  text; every buffer it touches is a device buffer; no operation leaves a result undetermined. The three
  lines one after the other are the entry function.
-/
import proofs.«133124_j89395449299015_1_alg».proof.Proof.Gen.ReferenceIdeal
import Idealize.ShloMosaic.Lib.StableHlo.Run
import Idealize.ShloMosaic.Lib.Pipeline.Frame

noncomputable section

namespace Cert.ReferenceIdeal.Lga

open Cert.ReferenceIdeal Cert.ReferenceIdeal.Gen Idealize.ShloMosaic Idealize.ShloMosaic.TcCoe Idealize.SL.Sem Idealize.ShloMosaic.StableHlo

variable {F : FTy → Type} [FloatOps F]

/-- The first part: the zero border, the zero accumulator, taps 0 to 7. -/
abbrev opsA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x32x384x768, .f32⟩) main_arg0) (TRef.of (T := ⟨S_, .f32⟩) main_call0_v0) (TRef.of (T := ⟨S4x32x388x772, .f32⟩) main_v0) (fun x v => pad S4x32x388x772 ![0, 0, 2, 2] ![0, 0, 2, 2] ![0, 0, 0, 0] x v pads_S4x32x384x768_S4x32x388x772_000_000_220_220 h_S_),
    nullary main_cst (constant S_ .f32 0x00000000#32),
    unary main_cst main_v1 (broadcastInDim S4x32x384x768 ![] bcast_S_S4x32x384x768 : (⟨S_, .f32⟩ : BufTy).Contents (Elt F) → (⟨S4x32x384x768, .f32⟩ : BufTy).Contents (Elt F)),
    unary main_v0 main_v2 ((extractStridedSlice S4x32x384x768 ![0, 0, 0, 0] · slices_S4x32x388x772_S4x32x384x768_0_0_0_0) : (⟨S4x32x388x772, .f32⟩ : BufTy).Contents (Elt F) → (⟨S4x32x384x768, .f32⟩ : BufTy).Contents (Elt F)),
    unary main_arg1 main_v3 ((extractStridedSlice S4x1x384x768 ![0, 0, 0, 0] · slices_S4x25x384x768_S4x1x384x768_0_0_0_0) : (⟨S4x25x384x768, .f32⟩ : BufTy).Contents (Elt F) → (⟨S4x1x384x768, .f32⟩ : BufTy).Contents (Elt F)),
    reshape main_v3 main_v4 rfl shapeCasts_S4x1x384x768_S4x384x768,
    unary main_v4 main_v5 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v5 main_v6 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v2 main_v6 main_v7 (mulf : (⟨S4x32x384x768, .f32⟩ : BufTy).Contents (Elt F) → (⟨S4x32x384x768, .f32⟩ : BufTy).Contents (Elt F) → (⟨S4x32x384x768, .f32⟩ : BufTy).Contents (Elt F)),
    binary main_v1 main_v7 main_v8 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v9 ((extractStridedSlice S4x32x384x768 ![0, 0, 0, 1] · slices_S4x32x388x772_S4x32x384x768_0_0_0_1) : (⟨S4x32x388x772, .f32⟩ : BufTy).Contents (Elt F) → (⟨S4x32x384x768, .f32⟩ : BufTy).Contents (Elt F)),
    unary main_arg1 main_v10 ((extractStridedSlice S4x1x384x768 ![0, 1, 0, 0] · slices_S4x25x384x768_S4x1x384x768_0_1_0_0) : (⟨S4x25x384x768, .f32⟩ : BufTy).Contents (Elt F) → (⟨S4x1x384x768, .f32⟩ : BufTy).Contents (Elt F)),
    reshape main_v10 main_v11 rfl shapeCasts_S4x1x384x768_S4x384x768,
    unary main_v11 main_v12 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v12 main_v13 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v9 main_v13 main_v14 (mulf : (⟨S4x32x384x768, .f32⟩ : BufTy).Contents (Elt F) → (⟨S4x32x384x768, .f32⟩ : BufTy).Contents (Elt F) → (⟨S4x32x384x768, .f32⟩ : BufTy).Contents (Elt F)),
    binary main_v8 main_v14 main_v15 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v16 ((extractStridedSlice S4x32x384x768 ![0, 0, 0, 2] · slices_S4x32x388x772_S4x32x384x768_0_0_0_2) : (⟨S4x32x388x772, .f32⟩ : BufTy).Contents (Elt F) → (⟨S4x32x384x768, .f32⟩ : BufTy).Contents (Elt F)),
    unary main_arg1 main_v17 ((extractStridedSlice S4x1x384x768 ![0, 2, 0, 0] · slices_S4x25x384x768_S4x1x384x768_0_2_0_0) : (⟨S4x25x384x768, .f32⟩ : BufTy).Contents (Elt F) → (⟨S4x1x384x768, .f32⟩ : BufTy).Contents (Elt F)),
    reshape main_v17 main_v18 rfl shapeCasts_S4x1x384x768_S4x384x768,
    unary main_v18 main_v19 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v19 main_v20 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v16 main_v20 main_v21 (mulf : (⟨S4x32x384x768, .f32⟩ : BufTy).Contents (Elt F) → (⟨S4x32x384x768, .f32⟩ : BufTy).Contents (Elt F) → (⟨S4x32x384x768, .f32⟩ : BufTy).Contents (Elt F)),
    binary main_v15 main_v21 main_v22 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v23 ((extractStridedSlice S4x32x384x768 ![0, 0, 0, 3] · slices_S4x32x388x772_S4x32x384x768_0_0_0_3) : (⟨S4x32x388x772, .f32⟩ : BufTy).Contents (Elt F) → (⟨S4x32x384x768, .f32⟩ : BufTy).Contents (Elt F)),
    unary main_arg1 main_v24 ((extractStridedSlice S4x1x384x768 ![0, 3, 0, 0] · slices_S4x25x384x768_S4x1x384x768_0_3_0_0) : (⟨S4x25x384x768, .f32⟩ : BufTy).Contents (Elt F) → (⟨S4x1x384x768, .f32⟩ : BufTy).Contents (Elt F)),
    reshape main_v24 main_v25 rfl shapeCasts_S4x1x384x768_S4x384x768,
    unary main_v25 main_v26 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v26 main_v27 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v23 main_v27 main_v28 (mulf : (⟨S4x32x384x768, .f32⟩ : BufTy).Contents (Elt F) → (⟨S4x32x384x768, .f32⟩ : BufTy).Contents (Elt F) → (⟨S4x32x384x768, .f32⟩ : BufTy).Contents (Elt F)),
    binary main_v22 main_v28 main_v29 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v30 ((extractStridedSlice S4x32x384x768 ![0, 0, 0, 4] · slices_S4x32x388x772_S4x32x384x768_0_0_0_4) : (⟨S4x32x388x772, .f32⟩ : BufTy).Contents (Elt F) → (⟨S4x32x384x768, .f32⟩ : BufTy).Contents (Elt F)),
    unary main_arg1 main_v31 ((extractStridedSlice S4x1x384x768 ![0, 4, 0, 0] · slices_S4x25x384x768_S4x1x384x768_0_4_0_0) : (⟨S4x25x384x768, .f32⟩ : BufTy).Contents (Elt F) → (⟨S4x1x384x768, .f32⟩ : BufTy).Contents (Elt F)),
    reshape main_v31 main_v32 rfl shapeCasts_S4x1x384x768_S4x384x768,
    unary main_v32 main_v33 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v33 main_v34 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v30 main_v34 main_v35 (mulf : (⟨S4x32x384x768, .f32⟩ : BufTy).Contents (Elt F) → (⟨S4x32x384x768, .f32⟩ : BufTy).Contents (Elt F) → (⟨S4x32x384x768, .f32⟩ : BufTy).Contents (Elt F)),
    binary main_v29 main_v35 main_v36 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v37 ((extractStridedSlice S4x32x384x768 ![0, 0, 1, 0] · slices_S4x32x388x772_S4x32x384x768_0_0_1_0) : (⟨S4x32x388x772, .f32⟩ : BufTy).Contents (Elt F) → (⟨S4x32x384x768, .f32⟩ : BufTy).Contents (Elt F)),
    unary main_arg1 main_v38 ((extractStridedSlice S4x1x384x768 ![0, 5, 0, 0] · slices_S4x25x384x768_S4x1x384x768_0_5_0_0) : (⟨S4x25x384x768, .f32⟩ : BufTy).Contents (Elt F) → (⟨S4x1x384x768, .f32⟩ : BufTy).Contents (Elt F)),
    reshape main_v38 main_v39 rfl shapeCasts_S4x1x384x768_S4x384x768,
    unary main_v39 main_v40 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v40 main_v41 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v37 main_v41 main_v42 (mulf : (⟨S4x32x384x768, .f32⟩ : BufTy).Contents (Elt F) → (⟨S4x32x384x768, .f32⟩ : BufTy).Contents (Elt F) → (⟨S4x32x384x768, .f32⟩ : BufTy).Contents (Elt F)),
    binary main_v36 main_v42 main_v43 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v44 ((extractStridedSlice S4x32x384x768 ![0, 0, 1, 1] · slices_S4x32x388x772_S4x32x384x768_0_0_1_1) : (⟨S4x32x388x772, .f32⟩ : BufTy).Contents (Elt F) → (⟨S4x32x384x768, .f32⟩ : BufTy).Contents (Elt F)),
    unary main_arg1 main_v45 ((extractStridedSlice S4x1x384x768 ![0, 6, 0, 0] · slices_S4x25x384x768_S4x1x384x768_0_6_0_0) : (⟨S4x25x384x768, .f32⟩ : BufTy).Contents (Elt F) → (⟨S4x1x384x768, .f32⟩ : BufTy).Contents (Elt F)),
    reshape main_v45 main_v46 rfl shapeCasts_S4x1x384x768_S4x384x768,
    unary main_v46 main_v47 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v47 main_v48 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v44 main_v48 main_v49 (mulf : (⟨S4x32x384x768, .f32⟩ : BufTy).Contents (Elt F) → (⟨S4x32x384x768, .f32⟩ : BufTy).Contents (Elt F) → (⟨S4x32x384x768, .f32⟩ : BufTy).Contents (Elt F)),
    binary main_v43 main_v49 main_v50 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v51 ((extractStridedSlice S4x32x384x768 ![0, 0, 1, 2] · slices_S4x32x388x772_S4x32x384x768_0_0_1_2) : (⟨S4x32x388x772, .f32⟩ : BufTy).Contents (Elt F) → (⟨S4x32x384x768, .f32⟩ : BufTy).Contents (Elt F)),
    unary main_arg1 main_v52 ((extractStridedSlice S4x1x384x768 ![0, 7, 0, 0] · slices_S4x25x384x768_S4x1x384x768_0_7_0_0) : (⟨S4x25x384x768, .f32⟩ : BufTy).Contents (Elt F) → (⟨S4x1x384x768, .f32⟩ : BufTy).Contents (Elt F)),
    reshape main_v52 main_v53 rfl shapeCasts_S4x1x384x768_S4x384x768,
    unary main_v53 main_v54 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v54 main_v55 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v51 main_v55 main_v56 (mulf : (⟨S4x32x384x768, .f32⟩ : BufTy).Contents (Elt F) → (⟨S4x32x384x768, .f32⟩ : BufTy).Contents (Elt F) → (⟨S4x32x384x768, .f32⟩ : BufTy).Contents (Elt F)),
    binary main_v50 main_v56 main_v57 (addf : (⟨S4x32x384x768, .f32⟩ : BufTy).Contents (Elt F) → (⟨S4x32x384x768, .f32⟩ : BufTy).Contents (Elt F) → (⟨S4x32x384x768, .f32⟩ : BufTy).Contents (Elt F)) ]

/-- The second part: taps 8 to 15, and of tap 16 the image window and the filter plane up to its first repeat. -/
abbrev opsB : List (HloOp τ sig (Elt F)) :=
  [ unary main_v0 main_v58 ((extractStridedSlice S4x32x384x768 ![0, 0, 1, 3] · slices_S4x32x388x772_S4x32x384x768_0_0_1_3) : (⟨S4x32x388x772, .f32⟩ : BufTy).Contents (Elt F) → (⟨S4x32x384x768, .f32⟩ : BufTy).Contents (Elt F)),
    unary main_arg1 main_v59 ((extractStridedSlice S4x1x384x768 ![0, 8, 0, 0] · slices_S4x25x384x768_S4x1x384x768_0_8_0_0) : (⟨S4x25x384x768, .f32⟩ : BufTy).Contents (Elt F) → (⟨S4x1x384x768, .f32⟩ : BufTy).Contents (Elt F)),
    reshape main_v59 main_v60 rfl shapeCasts_S4x1x384x768_S4x384x768,
    unary main_v60 main_v61 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v61 main_v62 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v58 main_v62 main_v63 (mulf : (⟨S4x32x384x768, .f32⟩ : BufTy).Contents (Elt F) → (⟨S4x32x384x768, .f32⟩ : BufTy).Contents (Elt F) → (⟨S4x32x384x768, .f32⟩ : BufTy).Contents (Elt F)),
    binary main_v57 main_v63 main_v64 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v65 ((extractStridedSlice S4x32x384x768 ![0, 0, 1, 4] · slices_S4x32x388x772_S4x32x384x768_0_0_1_4) : (⟨S4x32x388x772, .f32⟩ : BufTy).Contents (Elt F) → (⟨S4x32x384x768, .f32⟩ : BufTy).Contents (Elt F)),
    unary main_arg1 main_v66 ((extractStridedSlice S4x1x384x768 ![0, 9, 0, 0] · slices_S4x25x384x768_S4x1x384x768_0_9_0_0) : (⟨S4x25x384x768, .f32⟩ : BufTy).Contents (Elt F) → (⟨S4x1x384x768, .f32⟩ : BufTy).Contents (Elt F)),
    reshape main_v66 main_v67 rfl shapeCasts_S4x1x384x768_S4x384x768,
    unary main_v67 main_v68 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v68 main_v69 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v65 main_v69 main_v70 (mulf : (⟨S4x32x384x768, .f32⟩ : BufTy).Contents (Elt F) → (⟨S4x32x384x768, .f32⟩ : BufTy).Contents (Elt F) → (⟨S4x32x384x768, .f32⟩ : BufTy).Contents (Elt F)),
    binary main_v64 main_v70 main_v71 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v72 ((extractStridedSlice S4x32x384x768 ![0, 0, 2, 0] · slices_S4x32x388x772_S4x32x384x768_0_0_2_0) : (⟨S4x32x388x772, .f32⟩ : BufTy).Contents (Elt F) → (⟨S4x32x384x768, .f32⟩ : BufTy).Contents (Elt F)),
    unary main_arg1 main_v73 ((extractStridedSlice S4x1x384x768 ![0, 10, 0, 0] · slices_S4x25x384x768_S4x1x384x768_0_10_0_0) : (⟨S4x25x384x768, .f32⟩ : BufTy).Contents (Elt F) → (⟨S4x1x384x768, .f32⟩ : BufTy).Contents (Elt F)),
    reshape main_v73 main_v74 rfl shapeCasts_S4x1x384x768_S4x384x768,
    unary main_v74 main_v75 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v75 main_v76 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v72 main_v76 main_v77 (mulf : (⟨S4x32x384x768, .f32⟩ : BufTy).Contents (Elt F) → (⟨S4x32x384x768, .f32⟩ : BufTy).Contents (Elt F) → (⟨S4x32x384x768, .f32⟩ : BufTy).Contents (Elt F)),
    binary main_v71 main_v77 main_v78 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v79 ((extractStridedSlice S4x32x384x768 ![0, 0, 2, 1] · slices_S4x32x388x772_S4x32x384x768_0_0_2_1) : (⟨S4x32x388x772, .f32⟩ : BufTy).Contents (Elt F) → (⟨S4x32x384x768, .f32⟩ : BufTy).Contents (Elt F)),
    unary main_arg1 main_v80 ((extractStridedSlice S4x1x384x768 ![0, 11, 0, 0] · slices_S4x25x384x768_S4x1x384x768_0_11_0_0) : (⟨S4x25x384x768, .f32⟩ : BufTy).Contents (Elt F) → (⟨S4x1x384x768, .f32⟩ : BufTy).Contents (Elt F)),
    reshape main_v80 main_v81 rfl shapeCasts_S4x1x384x768_S4x384x768,
    unary main_v81 main_v82 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v82 main_v83 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v79 main_v83 main_v84 (mulf : (⟨S4x32x384x768, .f32⟩ : BufTy).Contents (Elt F) → (⟨S4x32x384x768, .f32⟩ : BufTy).Contents (Elt F) → (⟨S4x32x384x768, .f32⟩ : BufTy).Contents (Elt F)),
    binary main_v78 main_v84 main_v85 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v86 ((extractStridedSlice S4x32x384x768 ![0, 0, 2, 2] · slices_S4x32x388x772_S4x32x384x768_0_0_2_2) : (⟨S4x32x388x772, .f32⟩ : BufTy).Contents (Elt F) → (⟨S4x32x384x768, .f32⟩ : BufTy).Contents (Elt F)),
    unary main_arg1 main_v87 ((extractStridedSlice S4x1x384x768 ![0, 12, 0, 0] · slices_S4x25x384x768_S4x1x384x768_0_12_0_0) : (⟨S4x25x384x768, .f32⟩ : BufTy).Contents (Elt F) → (⟨S4x1x384x768, .f32⟩ : BufTy).Contents (Elt F)),
    reshape main_v87 main_v88 rfl shapeCasts_S4x1x384x768_S4x384x768,
    unary main_v88 main_v89 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v89 main_v90 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v86 main_v90 main_v91 (mulf : (⟨S4x32x384x768, .f32⟩ : BufTy).Contents (Elt F) → (⟨S4x32x384x768, .f32⟩ : BufTy).Contents (Elt F) → (⟨S4x32x384x768, .f32⟩ : BufTy).Contents (Elt F)),
    binary main_v85 main_v91 main_v92 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v93 ((extractStridedSlice S4x32x384x768 ![0, 0, 2, 3] · slices_S4x32x388x772_S4x32x384x768_0_0_2_3) : (⟨S4x32x388x772, .f32⟩ : BufTy).Contents (Elt F) → (⟨S4x32x384x768, .f32⟩ : BufTy).Contents (Elt F)),
    unary main_arg1 main_v94 ((extractStridedSlice S4x1x384x768 ![0, 13, 0, 0] · slices_S4x25x384x768_S4x1x384x768_0_13_0_0) : (⟨S4x25x384x768, .f32⟩ : BufTy).Contents (Elt F) → (⟨S4x1x384x768, .f32⟩ : BufTy).Contents (Elt F)),
    reshape main_v94 main_v95 rfl shapeCasts_S4x1x384x768_S4x384x768,
    unary main_v95 main_v96 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v96 main_v97 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v93 main_v97 main_v98 (mulf : (⟨S4x32x384x768, .f32⟩ : BufTy).Contents (Elt F) → (⟨S4x32x384x768, .f32⟩ : BufTy).Contents (Elt F) → (⟨S4x32x384x768, .f32⟩ : BufTy).Contents (Elt F)),
    binary main_v92 main_v98 main_v99 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v100 ((extractStridedSlice S4x32x384x768 ![0, 0, 2, 4] · slices_S4x32x388x772_S4x32x384x768_0_0_2_4) : (⟨S4x32x388x772, .f32⟩ : BufTy).Contents (Elt F) → (⟨S4x32x384x768, .f32⟩ : BufTy).Contents (Elt F)),
    unary main_arg1 main_v101 ((extractStridedSlice S4x1x384x768 ![0, 14, 0, 0] · slices_S4x25x384x768_S4x1x384x768_0_14_0_0) : (⟨S4x25x384x768, .f32⟩ : BufTy).Contents (Elt F) → (⟨S4x1x384x768, .f32⟩ : BufTy).Contents (Elt F)),
    reshape main_v101 main_v102 rfl shapeCasts_S4x1x384x768_S4x384x768,
    unary main_v102 main_v103 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v103 main_v104 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v100 main_v104 main_v105 (mulf : (⟨S4x32x384x768, .f32⟩ : BufTy).Contents (Elt F) → (⟨S4x32x384x768, .f32⟩ : BufTy).Contents (Elt F) → (⟨S4x32x384x768, .f32⟩ : BufTy).Contents (Elt F)),
    binary main_v99 main_v105 main_v106 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v107 ((extractStridedSlice S4x32x384x768 ![0, 0, 3, 0] · slices_S4x32x388x772_S4x32x384x768_0_0_3_0) : (⟨S4x32x388x772, .f32⟩ : BufTy).Contents (Elt F) → (⟨S4x32x384x768, .f32⟩ : BufTy).Contents (Elt F)),
    unary main_arg1 main_v108 ((extractStridedSlice S4x1x384x768 ![0, 15, 0, 0] · slices_S4x25x384x768_S4x1x384x768_0_15_0_0) : (⟨S4x25x384x768, .f32⟩ : BufTy).Contents (Elt F) → (⟨S4x1x384x768, .f32⟩ : BufTy).Contents (Elt F)),
    reshape main_v108 main_v109 rfl shapeCasts_S4x1x384x768_S4x384x768,
    unary main_v109 main_v110 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v110 main_v111 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v107 main_v111 main_v112 (mulf : (⟨S4x32x384x768, .f32⟩ : BufTy).Contents (Elt F) → (⟨S4x32x384x768, .f32⟩ : BufTy).Contents (Elt F) → (⟨S4x32x384x768, .f32⟩ : BufTy).Contents (Elt F)),
    binary main_v106 main_v112 main_v113 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v114 ((extractStridedSlice S4x32x384x768 ![0, 0, 3, 1] · slices_S4x32x388x772_S4x32x384x768_0_0_3_1) : (⟨S4x32x388x772, .f32⟩ : BufTy).Contents (Elt F) → (⟨S4x32x384x768, .f32⟩ : BufTy).Contents (Elt F)),
    unary main_arg1 main_v115 ((extractStridedSlice S4x1x384x768 ![0, 16, 0, 0] · slices_S4x25x384x768_S4x1x384x768_0_16_0_0) : (⟨S4x25x384x768, .f32⟩ : BufTy).Contents (Elt F) → (⟨S4x1x384x768, .f32⟩ : BufTy).Contents (Elt F)),
    reshape main_v115 main_v116 rfl shapeCasts_S4x1x384x768_S4x384x768,
    unary main_v116 main_v117 (broadcastInDim S4x1x384x768 ![0, 2, 3] bcast_S4x384x768_S4x1x384x768_0_2_3 : (⟨S4x384x768, .f32⟩ : BufTy).Contents (Elt F) → (⟨S4x1x384x768, .f32⟩ : BufTy).Contents (Elt F)) ]

/-- The third part: the rest of tap 16, taps 17 to 24. -/
abbrev opsC : List (HloOp τ sig (Elt F)) :=
  [ unary main_v117 main_v118 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v114 main_v118 main_v119 (mulf : (⟨S4x32x384x768, .f32⟩ : BufTy).Contents (Elt F) → (⟨S4x32x384x768, .f32⟩ : BufTy).Contents (Elt F) → (⟨S4x32x384x768, .f32⟩ : BufTy).Contents (Elt F)),
    binary main_v113 main_v119 main_v120 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v121 ((extractStridedSlice S4x32x384x768 ![0, 0, 3, 2] · slices_S4x32x388x772_S4x32x384x768_0_0_3_2) : (⟨S4x32x388x772, .f32⟩ : BufTy).Contents (Elt F) → (⟨S4x32x384x768, .f32⟩ : BufTy).Contents (Elt F)),
    unary main_arg1 main_v122 ((extractStridedSlice S4x1x384x768 ![0, 17, 0, 0] · slices_S4x25x384x768_S4x1x384x768_0_17_0_0) : (⟨S4x25x384x768, .f32⟩ : BufTy).Contents (Elt F) → (⟨S4x1x384x768, .f32⟩ : BufTy).Contents (Elt F)),
    reshape main_v122 main_v123 rfl shapeCasts_S4x1x384x768_S4x384x768,
    unary main_v123 main_v124 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v124 main_v125 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v121 main_v125 main_v126 (mulf : (⟨S4x32x384x768, .f32⟩ : BufTy).Contents (Elt F) → (⟨S4x32x384x768, .f32⟩ : BufTy).Contents (Elt F) → (⟨S4x32x384x768, .f32⟩ : BufTy).Contents (Elt F)),
    binary main_v120 main_v126 main_v127 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v128 ((extractStridedSlice S4x32x384x768 ![0, 0, 3, 3] · slices_S4x32x388x772_S4x32x384x768_0_0_3_3) : (⟨S4x32x388x772, .f32⟩ : BufTy).Contents (Elt F) → (⟨S4x32x384x768, .f32⟩ : BufTy).Contents (Elt F)),
    unary main_arg1 main_v129 ((extractStridedSlice S4x1x384x768 ![0, 18, 0, 0] · slices_S4x25x384x768_S4x1x384x768_0_18_0_0) : (⟨S4x25x384x768, .f32⟩ : BufTy).Contents (Elt F) → (⟨S4x1x384x768, .f32⟩ : BufTy).Contents (Elt F)),
    reshape main_v129 main_v130 rfl shapeCasts_S4x1x384x768_S4x384x768,
    unary main_v130 main_v131 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v131 main_v132 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v128 main_v132 main_v133 (mulf : (⟨S4x32x384x768, .f32⟩ : BufTy).Contents (Elt F) → (⟨S4x32x384x768, .f32⟩ : BufTy).Contents (Elt F) → (⟨S4x32x384x768, .f32⟩ : BufTy).Contents (Elt F)),
    binary main_v127 main_v133 main_v134 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v135 ((extractStridedSlice S4x32x384x768 ![0, 0, 3, 4] · slices_S4x32x388x772_S4x32x384x768_0_0_3_4) : (⟨S4x32x388x772, .f32⟩ : BufTy).Contents (Elt F) → (⟨S4x32x384x768, .f32⟩ : BufTy).Contents (Elt F)),
    unary main_arg1 main_v136 ((extractStridedSlice S4x1x384x768 ![0, 19, 0, 0] · slices_S4x25x384x768_S4x1x384x768_0_19_0_0) : (⟨S4x25x384x768, .f32⟩ : BufTy).Contents (Elt F) → (⟨S4x1x384x768, .f32⟩ : BufTy).Contents (Elt F)),
    reshape main_v136 main_v137 rfl shapeCasts_S4x1x384x768_S4x384x768,
    unary main_v137 main_v138 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v138 main_v139 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v135 main_v139 main_v140 (mulf : (⟨S4x32x384x768, .f32⟩ : BufTy).Contents (Elt F) → (⟨S4x32x384x768, .f32⟩ : BufTy).Contents (Elt F) → (⟨S4x32x384x768, .f32⟩ : BufTy).Contents (Elt F)),
    binary main_v134 main_v140 main_v141 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v142 ((extractStridedSlice S4x32x384x768 ![0, 0, 4, 0] · slices_S4x32x388x772_S4x32x384x768_0_0_4_0) : (⟨S4x32x388x772, .f32⟩ : BufTy).Contents (Elt F) → (⟨S4x32x384x768, .f32⟩ : BufTy).Contents (Elt F)),
    unary main_arg1 main_v143 ((extractStridedSlice S4x1x384x768 ![0, 20, 0, 0] · slices_S4x25x384x768_S4x1x384x768_0_20_0_0) : (⟨S4x25x384x768, .f32⟩ : BufTy).Contents (Elt F) → (⟨S4x1x384x768, .f32⟩ : BufTy).Contents (Elt F)),
    reshape main_v143 main_v144 rfl shapeCasts_S4x1x384x768_S4x384x768,
    unary main_v144 main_v145 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v145 main_v146 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v142 main_v146 main_v147 (mulf : (⟨S4x32x384x768, .f32⟩ : BufTy).Contents (Elt F) → (⟨S4x32x384x768, .f32⟩ : BufTy).Contents (Elt F) → (⟨S4x32x384x768, .f32⟩ : BufTy).Contents (Elt F)),
    binary main_v141 main_v147 main_v148 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v149 ((extractStridedSlice S4x32x384x768 ![0, 0, 4, 1] · slices_S4x32x388x772_S4x32x384x768_0_0_4_1) : (⟨S4x32x388x772, .f32⟩ : BufTy).Contents (Elt F) → (⟨S4x32x384x768, .f32⟩ : BufTy).Contents (Elt F)),
    unary main_arg1 main_v150 ((extractStridedSlice S4x1x384x768 ![0, 21, 0, 0] · slices_S4x25x384x768_S4x1x384x768_0_21_0_0) : (⟨S4x25x384x768, .f32⟩ : BufTy).Contents (Elt F) → (⟨S4x1x384x768, .f32⟩ : BufTy).Contents (Elt F)),
    reshape main_v150 main_v151 rfl shapeCasts_S4x1x384x768_S4x384x768,
    unary main_v151 main_v152 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v152 main_v153 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v149 main_v153 main_v154 (mulf : (⟨S4x32x384x768, .f32⟩ : BufTy).Contents (Elt F) → (⟨S4x32x384x768, .f32⟩ : BufTy).Contents (Elt F) → (⟨S4x32x384x768, .f32⟩ : BufTy).Contents (Elt F)),
    binary main_v148 main_v154 main_v155 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v156 ((extractStridedSlice S4x32x384x768 ![0, 0, 4, 2] · slices_S4x32x388x772_S4x32x384x768_0_0_4_2) : (⟨S4x32x388x772, .f32⟩ : BufTy).Contents (Elt F) → (⟨S4x32x384x768, .f32⟩ : BufTy).Contents (Elt F)),
    unary main_arg1 main_v157 ((extractStridedSlice S4x1x384x768 ![0, 22, 0, 0] · slices_S4x25x384x768_S4x1x384x768_0_22_0_0) : (⟨S4x25x384x768, .f32⟩ : BufTy).Contents (Elt F) → (⟨S4x1x384x768, .f32⟩ : BufTy).Contents (Elt F)),
    reshape main_v157 main_v158 rfl shapeCasts_S4x1x384x768_S4x384x768,
    unary main_v158 main_v159 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v159 main_v160 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v156 main_v160 main_v161 (mulf : (⟨S4x32x384x768, .f32⟩ : BufTy).Contents (Elt F) → (⟨S4x32x384x768, .f32⟩ : BufTy).Contents (Elt F) → (⟨S4x32x384x768, .f32⟩ : BufTy).Contents (Elt F)),
    binary main_v155 main_v161 main_v162 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v163 ((extractStridedSlice S4x32x384x768 ![0, 0, 4, 3] · slices_S4x32x388x772_S4x32x384x768_0_0_4_3) : (⟨S4x32x388x772, .f32⟩ : BufTy).Contents (Elt F) → (⟨S4x32x384x768, .f32⟩ : BufTy).Contents (Elt F)),
    unary main_arg1 main_v164 ((extractStridedSlice S4x1x384x768 ![0, 23, 0, 0] · slices_S4x25x384x768_S4x1x384x768_0_23_0_0) : (⟨S4x25x384x768, .f32⟩ : BufTy).Contents (Elt F) → (⟨S4x1x384x768, .f32⟩ : BufTy).Contents (Elt F)),
    reshape main_v164 main_v165 rfl shapeCasts_S4x1x384x768_S4x384x768,
    unary main_v165 main_v166 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v166 main_v167 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v163 main_v167 main_v168 (mulf : (⟨S4x32x384x768, .f32⟩ : BufTy).Contents (Elt F) → (⟨S4x32x384x768, .f32⟩ : BufTy).Contents (Elt F) → (⟨S4x32x384x768, .f32⟩ : BufTy).Contents (Elt F)),
    binary main_v162 main_v168 main_v169 (addf : (⟨S4x32x384x768, .f32⟩ : BufTy).Contents (Elt F) → (⟨S4x32x384x768, .f32⟩ : BufTy).Contents (Elt F) → (⟨S4x32x384x768, .f32⟩ : BufTy).Contents (Elt F)),
    unary main_v0 main_v170 ((extractStridedSlice S4x32x384x768 ![0, 0, 4, 4] · slices_S4x32x388x772_S4x32x384x768_0_0_4_4) : (⟨S4x32x388x772, .f32⟩ : BufTy).Contents (Elt F) → (⟨S4x32x384x768, .f32⟩ : BufTy).Contents (Elt F)),
    unary main_arg1 main_v171 ((extractStridedSlice S4x1x384x768 ![0, 24, 0, 0] · slices_S4x25x384x768_S4x1x384x768_0_24_0_0) : (⟨S4x25x384x768, .f32⟩ : BufTy).Contents (Elt F) → (⟨S4x1x384x768, .f32⟩ : BufTy).Contents (Elt F)),
    reshape main_v171 main_v172 rfl shapeCasts_S4x1x384x768_S4x384x768,
    unary main_v172 main_v173 (broadcastInDim S4x1x384x768 ![0, 2, 3] bcast_S4x384x768_S4x1x384x768_0_2_3 : (⟨S4x384x768, .f32⟩ : BufTy).Contents (Elt F) → (⟨S4x1x384x768, .f32⟩ : BufTy).Contents (Elt F)),
    unary main_v173 main_v174 (broadcastInDim S4x32x384x768 ![0, 1, 2, 3] bcast_S4x1x384x768_S4x32x384x768_0_1_2_3 : (⟨S4x1x384x768, .f32⟩ : BufTy).Contents (Elt F) → (⟨S4x32x384x768, .f32⟩ : BufTy).Contents (Elt F)),
    binary main_v170 main_v174 main_v175 (mulf : (⟨S4x32x384x768, .f32⟩ : BufTy).Contents (Elt F) → (⟨S4x32x384x768, .f32⟩ : BufTy).Contents (Elt F) → (⟨S4x32x384x768, .f32⟩ : BufTy).Contents (Elt F)),
    binary main_v169 main_v175 main_v176 (addf : (⟨S4x32x384x768, .f32⟩ : BufTy).Contents (Elt F) → (⟨S4x32x384x768, .f32⟩ : BufTy).Contents (Elt F) → (⟨S4x32x384x768, .f32⟩ : BufTy).Contents (Elt F)) ]

set_option maxRecDepth 8192 in
set_option maxHeartbeats 4000000 in
theorem partA_eq (c : Dev nD) : main_part0 (F := F) c = seq opsA := rfl
set_option maxRecDepth 8192 in
set_option maxHeartbeats 4000000 in
theorem partB_eq (c : Dev nD) : main_part1 (F := F) c = seq opsB := rfl
set_option maxRecDepth 8192 in
set_option maxHeartbeats 4000000 in
theorem partC_eq (c : Dev nD) : main_part2 (F := F) c = seq opsC := rfl

/-- The whole line. -/
abbrev ops : List (HloOp τ sig (Elt F)) := opsA ++ (opsB ++ opsC)

theorem main_eq (c : Dev nD) : main (F := F) c = seq ops := by
  rw [seq_append, seq_append, ← partA_eq c, ← partB_eq c, ← partC_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem opsB_sub : (opsB : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub ..⟩
set_option maxRecDepth 8192 in
theorem opsC_sub : (opsC : List (HloOp τ sig (Elt F))).Forall fun op => op.bufs ⊆ tcRefs τ sig :=
  ⟨unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h,
      List.forall_iff_forall_mem.mp opsC_sub op h]

set_option maxRecDepth 8192 in
theorem opsA_fresh : ∀ op ∈ (opsA : List (HloOp τ sig (Elt F))), op.fresh = ∅ := by
  intro _ h; (repeat (cases h with | head => rfl | tail _ h => ?_)); exact nomatch h
set_option maxRecDepth 8192 in
theorem opsB_fresh : ∀ op ∈ (opsB : List (HloOp τ sig (Elt F))), op.fresh = ∅ := by
  intro _ h; (repeat (cases h with | head => rfl | tail _ h => ?_)); exact nomatch h
set_option maxRecDepth 8192 in
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h
  exacts [opsA_fresh op h, opsB_fresh op h, opsC_fresh op h]

/-- Every weakly fair execution of the reference terminates, and leaves every device buffer at what the
    line's operations, applied in order, make of the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Lga

end
-- ==== Proof.LgaHostRead.lean ====
/-
  The reference's operations read at one pixel.

  The reference cuts, for tap (di, dj), the window of the padded image that starts at row di and column dj and
  has the image's own extent: read at pixel i this is the padded image at i moved by (di, dj). For tap k it
  cuts plane k out of the filters (a [4, 1, 384, 768] slab), drops the unit axis, puts it back and repeats
  the slab along the 32 channels: read at pixel (n, c, h, w) this is the filter entry (n, k, h, w), whatever
  the channel c.
-/
import proofs.«133124_j89395449299015_1_alg».proof.Proof.LgaSpec

noncomputable section

namespace Cert.Lga

open Idealize.ShloMosaic Idealize.ShloMosaic.ValueIdx

/-- One tap's plane of the filters, its unit axis kept. -/
abbrev Splane : Shape := ⟨4, ![4, 1, 384, 768]⟩
/-- The same plane with the unit axis dropped. -/
abbrev Splane3 : Shape := ⟨3, ![4, 384, 768]⟩

/-- The window of the padded image at offsets (di, dj), read at pixel `i`, is the padded image at `i` moved by
    the offsets. -/
theorem window_apply (P : Spad.Idx → EReal) (di dj : Fin 5) (h : Spad.Slices ![0, 0, di.val, dj.val] Simg)
    (i : Simg.Idx) : extractStridedSlice Simg ![0, 0, di.val, dj.val] P h i = P (haloIdx i di dj) :=
  extractStridedSlice_apply _ P h i (haloIdx i di dj) fun a => match a with
    | ⟨0, _⟩ => by show (i 0).val = 0 + (i 0).val; omega
    | ⟨1, _⟩ => by show (i 1).val = 0 + (i 1).val; omega
    | ⟨2, _⟩ => by show (i 2).val + di.val = di.val + (i 2).val; omega
    | ⟨3, _⟩ => by show (i 3).val + dj.val = dj.val + (i 3).val; omega

/-- Pixel `i` seen in a tap's plane: channel coordinate 0. -/
def planeIdx (i : Simg.Idx) : Splane.Idx := fun a => match a with
  | ⟨0, _⟩ => ⟨(i 0).val, by have h : (i 0).val < 4 := (i 0).isLt; show (i 0).val < 4; omega⟩
  | ⟨1, _⟩ => ⟨0, by show 0 < 1; omega⟩
  | ⟨2, _⟩ => ⟨(i 2).val, by have h : (i 2).val < 384 := (i 2).isLt; show (i 2).val < 384; omega⟩
  | ⟨3, _⟩ => ⟨(i 3).val, by have h : (i 3).val < 768 := (i 3).isLt; show (i 3).val < 768; omega⟩

/-- Pixel `i` seen in a tap's plane without the unit axis. -/
def plane3Idx (i : Simg.Idx) : Splane3.Idx := fun a => match a with
  | ⟨0, _⟩ => ⟨(i 0).val, by have h : (i 0).val < 4 := (i 0).isLt; show (i 0).val < 4; omega⟩
  | ⟨1, _⟩ => ⟨(i 2).val, by have h : (i 2).val < 384 := (i 2).isLt; show (i 2).val < 384; omega⟩
  | ⟨2, _⟩ => ⟨(i 3).val, by have h : (i 3).val < 768 := (i 3).isLt; show (i 3).val < 768; omega⟩

/-- Plane `k` of the filters, squeezed, unsqueezed and repeated along the channels, read at pixel `i`, is the
    filter entry of `i`'s batch, row and column at tap `k`. -/
theorem plane_apply (W : Swt.Idx → EReal) (k : Fin 25) (hs : Swt.Slices ![0, k.val, 0, 0] Splane)
    (hc : Splane.ShapeCasts Splane3) (hb : Splane3.BroadcastsInDim Splane ![0, 2, 3])
    (hb' : Splane.BroadcastsInDim Simg ![0, 1, 2, 3]) (i : Simg.Idx) :
    broadcastInDim Simg ![0, 1, 2, 3] hb' (broadcastInDim Splane ![0, 2, 3] hb
      (shapeCast Splane3 (extractStridedSlice Splane ![0, k.val, 0, 0] W hs) hc)) i = W (tapIdx i k) := by
  refine (broadcastInDim_apply _ hb' _ i (planeIdx i) fun a => ?_).trans ?_
  · match a with
    | ⟨0, _⟩ => rfl
    | ⟨1, _⟩ => rfl
    | ⟨2, _⟩ => rfl
    | ⟨3, _⟩ => rfl
  refine (broadcastInDim_apply _ hb _ (planeIdx i) (plane3Idx i) fun a => ?_).trans ?_
  · match a with
    | ⟨0, _⟩ => rfl
    | ⟨1, _⟩ => rfl
    | ⟨2, _⟩ => rfl
  refine (shapeCast_apply _ hc (plane3Idx i) (planeIdx i) ?_).trans ?_
  · rw [Shape.rowMajor_val_four, Shape.rowMajor_val_three]
    show (((i 0).val * 1 + 0) * 384 + (i 2).val) * 768 + (i 3).val = ((i 0).val * 384 + (i 2).val) * 768 + (i 3).val
    omega
  exact extractStridedSlice_apply _ W hs (planeIdx i) (tapIdx i k) fun a => match a with
    | ⟨0, _⟩ => by show (i 0).val = 0 + (i 0).val; omega
    | ⟨1, _⟩ => by show k.val = k.val + 0; omega
    | ⟨2, _⟩ => by show (i 2).val = 0 + (i 2).val; omega
    | ⟨3, _⟩ => by show (i 3).val = 0 + (i 3).val; omega

end Cert.Lga

end
-- ==== Proof.LgaRefTerm.lean ====
/-
  The reference's value as whole-array terms, and what they are at one pixel.

  The reference keeps a running sum of the image's shape. It starts from the zero array and adds, tap after
  tap, the product of a window of the padded image with one filter plane repeated along the channels.
  The terms below spell that computation over arrays, cut where the program's text is cut: after tap 7,
  and inside tap 16, whose window and plane are made before the cut and multiplied after it. At one pixel
  the final term is the aggregation's fold.
-/
import proofs.«133124_j89395449299015_1_alg».proof.Proof.LgaHostRead
import Idealize.ShloMosaic.PureOps.Ideal.Laws

noncomputable section

namespace Cert.Lga

open Idealize.ShloMosaic Idealize.ShloMosaic.ValueIdx

theorem window_slices : ∀ di dj : Fin 5, Spad.Slices ![0, 0, di.val, dj.val] Simg := by decide
theorem plane_slices : ∀ k : Fin 25, Swt.Slices ![0, k.val, 0, 0] Splane := by decide
theorem plane_squeezes : Splane.ShapeCasts Splane3 := by decide
theorem plane_unsqueezes : Splane3.BroadcastsInDim Splane (![0, 2, 3] : Fin 3 → Fin Splane.rank) := by decide
theorem plane_repeats : Splane.BroadcastsInDim Simg (![0, 1, 2, 3] : Fin 4 → Fin Simg.rank) := by decide
theorem scalar_fills : Sscalar.BroadcastsInDim Simg (![] : Fin 0 → Fin Simg.rank) := by decide

section Terms

variable {F : FTy → Type} [FloatOps F]

/-- The window of the padded image for tap (di, dj). -/
def imgWindow (di dj : Fin 5) (P : FVec F Spad .f32) : FVec F Simg .f32 :=
  extractStridedSlice Simg ![0, 0, di.val, dj.val] P (window_slices di dj)

/-- Filter plane `k`: cut out, squeezed, and given its unit channel axis back. -/
def planeSlab (k : Fin 25) (W : FVec F Swt .f32) : FVec F Splane .f32 :=
  broadcastInDim Splane ![0, 2, 3] plane_unsqueezes
    (shapeCast Splane3 (extractStridedSlice Splane ![0, k.val, 0, 0] W (plane_slices k)) plane_squeezes)

/-- One tap's summand: the window times the plane repeated along the channels. -/
def tapProd (di dj : Fin 5) (k : Fin 25) (P : FVec F Spad .f32) (W : FVec F Swt .f32) : FVec F Simg .f32 :=
  mulf (imgWindow di dj P) (broadcastInDim Simg ![0, 1, 2, 3] plane_repeats (planeSlab k W))

/-- The running sum's start. -/
def zeroImg : FVec F Simg .f32 := broadcastInDim Simg ![] scalar_fills (constant Sscalar .f32 0x00000000#32)

/-- The running sum after taps 0 to 7. -/
def accA (P : FVec F Spad .f32) (W : FVec F Swt .f32) : FVec F Simg .f32 :=
  addf (addf (addf (addf (addf (addf (addf (addf zeroImg (tapProd 0 0 0 P W)) (tapProd 0 1 1 P W)) (tapProd 0 2 2 P W)) (tapProd 0 3 3 P W)) (tapProd 0 4 4 P W)) (tapProd 1 0 5 P W)) (tapProd 1 1 6 P W)) (tapProd 1 2 7 P W)

/-- Taps 8 to 15 added onto a running sum `A`. -/
def accB (A : FVec F Simg .f32) (P : FVec F Spad .f32) (W : FVec F Swt .f32) : FVec F Simg .f32 :=
  addf (addf (addf (addf (addf (addf (addf (addf A (tapProd 1 3 8 P W)) (tapProd 1 4 9 P W)) (tapProd 2 0 10 P W)) (tapProd 2 1 11 P W)) (tapProd 2 2 12 P W)) (tapProd 2 3 13 P W)) (tapProd 2 4 14 P W)) (tapProd 3 0 15 P W)

/-- Tap 16 from its window `win` and its plane `slab` made earlier, then taps 17 to 24, added onto `A`. -/
def accC (A win : FVec F Simg .f32) (slab : FVec F Splane .f32) (P : FVec F Spad .f32) (W : FVec F Swt .f32) : FVec F Simg .f32 :=
  addf (addf (addf (addf (addf (addf (addf (addf (addf A (mulf win (broadcastInDim Simg ![0, 1, 2, 3] plane_repeats slab))) (tapProd 3 2 17 P W)) (tapProd 3 3 18 P W)) (tapProd 3 4 19 P W)) (tapProd 4 0 20 P W)) (tapProd 4 1 21 P W)) (tapProd 4 2 22 P W)) (tapProd 4 3 23 P W)) (tapProd 4 4 24 P W)

/-- The reference's result array from the padded image and the filters. -/
def refValue (P : FVec F Spad .f32) (W : FVec F Swt .f32) : FVec F Simg .f32 :=
  accC (accB (accA P W) P W) (imgWindow 3 1 P) (planeSlab 16 W) P W

end Terms

/-- At pixel `i` the reference's result is the aggregation's fold over the padded image and the filters. -/
theorem refValue_apply (P : FVec Ideal Spad .f32) (W : FVec Ideal Swt .f32) (i : Simg.Idx) :
    refValue (F := Ideal) P W i = lga P W i := by
  unfold refValue accC accB accA tapProd planeSlab imgWindow zeroImg lga tapFold
  simp only [addf_apply, mulf_apply]
  refine acc_step ?_ (window_apply P 4 4 _ i) (plane_apply W 24 _ _ _ _ i)
  refine acc_step ?_ (window_apply P 4 3 _ i) (plane_apply W 23 _ _ _ _ i)
  refine acc_step ?_ (window_apply P 4 2 _ i) (plane_apply W 22 _ _ _ _ i)
  refine acc_step ?_ (window_apply P 4 1 _ i) (plane_apply W 21 _ _ _ _ i)
  refine acc_step ?_ (window_apply P 4 0 _ i) (plane_apply W 20 _ _ _ _ i)
  refine acc_step ?_ (window_apply P 3 4 _ i) (plane_apply W 19 _ _ _ _ i)
  refine acc_step ?_ (window_apply P 3 3 _ i) (plane_apply W 18 _ _ _ _ i)
  refine acc_step ?_ (window_apply P 3 2 _ i) (plane_apply W 17 _ _ _ _ i)
  refine acc_step ?_ (window_apply P 3 1 _ i) (plane_apply W 16 _ _ _ _ i)
  refine acc_step ?_ (window_apply P 3 0 _ i) (plane_apply W 15 _ _ _ _ i)
  refine acc_step ?_ (window_apply P 2 4 _ i) (plane_apply W 14 _ _ _ _ i)
  refine acc_step ?_ (window_apply P 2 3 _ i) (plane_apply W 13 _ _ _ _ i)
  refine acc_step ?_ (window_apply P 2 2 _ i) (plane_apply W 12 _ _ _ _ i)
  refine acc_step ?_ (window_apply P 2 1 _ i) (plane_apply W 11 _ _ _ _ i)
  refine acc_step ?_ (window_apply P 2 0 _ i) (plane_apply W 10 _ _ _ _ i)
  refine acc_step ?_ (window_apply P 1 4 _ i) (plane_apply W 9 _ _ _ _ i)
  refine acc_step ?_ (window_apply P 1 3 _ i) (plane_apply W 8 _ _ _ _ i)
  refine acc_step ?_ (window_apply P 1 2 _ i) (plane_apply W 7 _ _ _ _ i)
  refine acc_step ?_ (window_apply P 1 1 _ i) (plane_apply W 6 _ _ _ _ i)
  refine acc_step ?_ (window_apply P 1 0 _ i) (plane_apply W 5 _ _ _ _ i)
  refine acc_step ?_ (window_apply P 0 4 _ i) (plane_apply W 4 _ _ _ _ i)
  refine acc_step ?_ (window_apply P 0 3 _ i) (plane_apply W 3 _ _ _ _ i)
  refine acc_step ?_ (window_apply P 0 2 _ i) (plane_apply W 2 _ _ _ _ i)
  refine acc_step ?_ (window_apply P 0 1 _ i) (plane_apply W 1 _ _ _ _ i)
  refine acc_step ?_ (window_apply P 0 0 _ i) (plane_apply W 0 _ _ _ _ i)
  rfl

end Cert.Lga

end
-- ==== Proof.LgaRefValue.lean ====
/-
  The reference's run, read window by window.

  From any contents of the device's buffers, the first part of the reference's text leaves the padded
  image and the running sum after taps 0 to 7; the second part adds taps 8 to 15 and prepares tap 16's
  window and plane; the third part finishes: the result buffer ends at the whole-array term `refValue` of
  the padded image and the filters. No part writes an argument.
-/
import proofs.«133124_j89395449299015_1_alg».proof.Proof.LgaRefOps
import proofs.«133124_j89395449299015_1_alg».proof.Proof.LgaRefTerm

noncomputable section

namespace Cert.ReferenceIdeal.Lga

open Cert.ReferenceIdeal Cert.ReferenceIdeal.Gen Cert.Lga Idealize.ShloMosaic Idealize.ShloMosaic.TcCoe Idealize.SL.Sem Idealize.ShloMosaic.StableHlo

variable {F : FTy → Type} [FloatOps F]
variable (V0 : Valuation τ sig (Elt F))

/-- The buffers' contents after the first part, after the first two, after all three. -/
def valA : Valuation τ sig (Elt F) := after opsA V0
def valB : Valuation τ sig (Elt F) := after opsB (valA V0)
def valC : Valuation τ sig (Elt F) := after opsC (valB V0)

theorem after_ops : after ops V0 = valC V0 := by
  simp only [ops, StableHlo.after_append]
  rfl

/-! ## After the first part -/

set_option maxRecDepth 8192 in
set_option maxHeartbeats 2000000 in
theorem valA_arg0 : valA V0 (no_index (Proc.devRef .tc main_arg0)) = V0 (Proc.devRef .tc main_arg0) := by
  unfold valA; simp only [opsA]; after_results_simp
  all_goals rfl
set_option maxRecDepth 8192 in
set_option maxHeartbeats 2000000 in
theorem valA_arg1 : valA V0 (no_index (Proc.devRef .tc main_arg1)) = V0 (Proc.devRef .tc main_arg1) := by
  unfold valA; simp only [opsA]; after_results_simp
  all_goals rfl
set_option maxRecDepth 8192 in
set_option maxHeartbeats 2000000 in
theorem valA_padded : valA V0 (no_index (Proc.devRef .tc main_v0)) = padded (V0 (Proc.devRef .tc main_arg0)) := by
  unfold valA; simp only [opsA]; after_results_simp
  all_goals rfl
set_option maxRecDepth 8192 in
set_option maxHeartbeats 2000000 in
theorem valA_acc : valA V0 (no_index (Proc.devRef .tc main_v57))
    = accA (padded (V0 (Proc.devRef .tc main_arg0))) (V0 (Proc.devRef .tc main_arg1)) := by
  unfold valA; simp only [opsA]; after_results_simp
  all_goals rfl

/-! ## After the second part -/

set_option maxRecDepth 8192 in
set_option maxHeartbeats 2000000 in
theorem valB_arg0 : valB V0 (no_index (Proc.devRef .tc main_arg0)) = V0 (Proc.devRef .tc main_arg0) := by
  unfold valB; simp only [opsB]; after_results_simp
  simp only [valA_arg0] <;> rfl
set_option maxRecDepth 8192 in
set_option maxHeartbeats 2000000 in
theorem valB_arg1 : valB V0 (no_index (Proc.devRef .tc main_arg1)) = V0 (Proc.devRef .tc main_arg1) := by
  unfold valB; simp only [opsB]; after_results_simp
  simp only [valA_arg1] <;> rfl
set_option maxRecDepth 8192 in
set_option maxHeartbeats 2000000 in
theorem valB_padded : valB V0 (no_index (Proc.devRef .tc main_v0)) = padded (V0 (Proc.devRef .tc main_arg0)) := by
  unfold valB; simp only [opsB]; after_results_simp
  simp only [valA_padded] <;> rfl
set_option maxRecDepth 8192 in
set_option maxHeartbeats 2000000 in
theorem valB_acc : valB V0 (no_index (Proc.devRef .tc main_v113))
    = accB (accA (padded (V0 (Proc.devRef .tc main_arg0))) (V0 (Proc.devRef .tc main_arg1)))
        (padded (V0 (Proc.devRef .tc main_arg0))) (V0 (Proc.devRef .tc main_arg1)) := by
  unfold valB; simp only [opsB]; after_results_simp
  simp only [valA_padded, valA_acc, valA_arg1] <;> rfl
set_option maxRecDepth 8192 in
set_option maxHeartbeats 2000000 in
theorem valB_win : valB V0 (no_index (Proc.devRef .tc main_v114)) = imgWindow 3 1 (padded (V0 (Proc.devRef .tc main_arg0))) := by
  unfold valB; simp only [opsB]; after_results_simp
  simp only [valA_padded] <;> rfl
set_option maxRecDepth 8192 in
set_option maxHeartbeats 2000000 in
theorem valB_slab : valB V0 (no_index (Proc.devRef .tc main_v117)) = planeSlab 16 (V0 (Proc.devRef .tc main_arg1)) := by
  unfold valB; simp only [opsB]; after_results_simp
  simp only [valA_arg1] <;> rfl

/-! ## After the third part -/

set_option maxRecDepth 8192 in
set_option maxHeartbeats 2000000 in
theorem valC_arg0 : valC V0 (no_index (Proc.devRef .tc main_arg0)) = V0 (Proc.devRef .tc main_arg0) := by
  unfold valC; simp only [opsC]; after_results_simp
  simp only [valB_arg0] <;> rfl
set_option maxRecDepth 8192 in
set_option maxHeartbeats 2000000 in
theorem valC_arg1 : valC V0 (no_index (Proc.devRef .tc main_arg1)) = V0 (Proc.devRef .tc main_arg1) := by
  unfold valC; simp only [opsC]; after_results_simp
  simp only [valB_arg1] <;> rfl
set_option maxRecDepth 8192 in
set_option maxHeartbeats 2000000 in
theorem valC_out : valC V0 (no_index (Proc.devRef .tc main_v176))
    = refValue (padded (V0 (Proc.devRef .tc main_arg0))) (V0 (Proc.devRef .tc main_arg1)) := by
  unfold valC; simp only [opsC]; after_results_simp
  simp only [valB_padded, valB_acc, valB_win, valB_slab, valB_arg1] <;> rfl

/-! ## The run -/

/-- Every weakly fair execution of the reference terminates with its result at `refValue` of the padded first
    argument and the second argument, and both arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v176)
          = refValue (padded (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v176).trans (by rw [after_ops]; exact valC_out _),
       (h c main_arg0).trans (by rw [after_ops]; exact valC_arg0 _),
       (h c main_arg1).trans (by rw [after_ops]; exact valC_arg1 _)⟩)
    (run_after m ρ)

end Cert.ReferenceIdeal.Lga

end
-- ==== Proof.lean ====
/-
  Local guided aggregation: a Pallas kernel against its jnp reference, over the extended reals.

  Both programs pad the image with a zero border of width two and then, at every pixel (n, c, h, w), add
  up, from zero and from the left, the 25 products P[n, c, h + di, w + dj] · W[n, 5·di + dj, h, w] of the
  padded image P with the pixel's own 5 × 5 filter W, in the taps' row-major order. The kernel does it one
  (batch entry, channel) block per grid point with the filters of the batch entry resident; the reference
  does it on whole arrays. The order of the additions and of the factors is the same in both, so the two
  results are equal term by term and no property of the inputs is used: the precondition is never opened.

  The kernel's frame at both instances is the generated one. The kernel's value is read off that frame's
  run block by block (LgaKernelBlock, LgaKernelRun); the reference's run is read part by part of its text
  (LgaRefOps, LgaRefValue) and its result term at a pixel is the same fold (LgaRefTerm). No operation of the
  kernel was rewritten for its idealization, so nothing is to be preserved.
-/
import proofs.«133124_j89395449299015_1_alg».proof.Defs
import proofs.«133124_j89395449299015_1_alg».proof.Proof.Gen.Kernel
import proofs.«133124_j89395449299015_1_alg».proof.Proof.Gen.Kernel.Frame
import proofs.«133124_j89395449299015_1_alg».proof.Proof.Gen.KernelIdeal
import proofs.«133124_j89395449299015_1_alg».proof.Proof.Gen.KernelIdeal.Frame
import proofs.«133124_j89395449299015_1_alg».proof.Proof.Gen.ReferenceIdeal
import proofs.«133124_j89395449299015_1_alg».proof.Proof.Gen.Pre_finite_inputs
import proofs.«133124_j89395449299015_1_alg».proof.Proof.LgaKernelRun
import proofs.«133124_j89395449299015_1_alg».proof.Proof.LgaRefValue
import Idealize.ShloMosaic.Adequacy
import Idealize.ShloMosaic.Init

noncomputable section

namespace Cert.Proof

open Idealize.ShloMosaic Idealize.ShloMosaic.TcCoe Idealize.SL.Sem Cert.Lga

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Lga.run (F := Ideal) m ρ)

theorem preserves : Cert.preserves_Kernel_KernelIdeal := trivial

/-- Both programs end with the aggregation of the padded first argument and the second argument: the kernel's
    result array block by block, the reference's whole-array term pixel by pixel. -/
theorem algebraic : Cert.algebraic_KernelIdeal_ReferenceIdeal := by
  intro m ρ m' ρ' _ hagree
  refine ⟨fun c => lga (padded (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Lga.run m ρ, ?_⟩
  refine (θ_run Cert.ReferenceIdeal.defs _ _).mono (fun _ h c => ⟨(h c).1.trans ?_, (h c).2⟩)
    (Cert.ReferenceIdeal.Lga.run (F := Ideal) m' ρ')
  rw [(hagree c).1, (hagree c).2]
  exact funext fun i => refValue_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
